-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S64x128 : Shape := ⟨2, ![64, 128]⟩
abbrev S64 : Shape := ⟨1, ![64]⟩
abbrev S32x16 : Shape := ⟨2, ![32, 16]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part3 {F : FTy → Type} [FloatOps F] (main_arg12 : FVec F S64 .f32) (main_v47 : IVec S_ 1) (main_v50 : IVec S64 1) : IVec S_ 1 :=
  let main_c_19 : IVec S_ 1 := constantI S_ 1 1#1
  let main_v51 : IVec S_ 1 := (fun x v => Host.reduce IntOp.andi x v reducesTo_S64_S_d0 h_S_) main_v50 main_c_19
  let main_v52 : IVec S_ 1 := andi main_v47 main_v51
  let main_v53 : FVec F S64 .f32 := Host.absf main_arg12
  let main_cst_20 : FVec F S_ .f32 := constant S_ .f32 0x7F800000#32
  let main_v54 : FVec F S64 .f32 := broadcastInDim S64 ![] bcast_S_S64 main_cst_20
  let main_v55 : IVec S64 1 := cmpf .olt main_v53 main_v54
  let main_c_21 : IVec S_ 1 := constantI S_ 1 1#1
  let main_v56 : IVec S_ 1 := (fun x v => Host.reduce IntOp.andi x v reducesTo_S64_S_d0 h_S_) main_v55 main_c_21
  let main_v57 : IVec S_ 1 := andi main_v52 main_v56
  main_v57

def fn_part2 {F : FTy → Type} [FloatOps F] (main_arg8 : FVec F S1 .f32) (main_arg9 : FVec F S_ .f32) (main_arg10 : FVec F S64 .f32) (main_arg11 : FVec F S64 .f32) (main_arg12 : FVec F S64 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S_ .f32 := Host.absf main_arg9
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_v43 : FVec F S64 .f32 := Host.absf main_arg10
  let main_cst_16 : FVec F S_ .f32 := constant S_ .f32 0x7F800000#32
  let main_v44 : FVec F S64 .f32 := broadcastInDim S64 ![] bcast_S_S64 main_cst_16
  let main_v45 : IVec S64 1 := cmpf .olt main_v43 main_v44
  let main_c_17 : IVec S_ 1 := constantI S_ 1 1#1
  let main_v46 : IVec S_ 1 := (fun x v => Host.reduce IntOp.andi x v reducesTo_S64_S_d0 h_S_) main_v45 main_c_17
  let main_v47 : IVec S_ 1 := andi main_v42 main_v46
  let main_v48 : FVec F S64 .f32 := Host.absf main_arg11
  let main_cst_18 : FVec F S_ .f32 := constant S_ .f32 0x7F800000#32
  let main_v49 : FVec F S64 .f32 := broadcastInDim S64 ![] bcast_S_S64 main_cst_18
  let main_v50 : IVec S64 1 := cmpf .olt main_v48 main_v49
  fn_part3 (F := F) main_arg12 main_v47 main_v50

def fn_part1 {F : FTy → Type} [FloatOps F] (main_arg5 : FVec F S32x16 .f32) (main_arg6 : FVec F S32 .f32) (main_arg7 : FVec F S1x32 .f32) (main_arg8 : FVec F S1 .f32) (main_arg9 : FVec F S_ .f32) (main_arg10 : FVec F S64 .f32) (main_arg11 : FVec F S64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1x32 .f32 := Host.absf main_arg7
  let main_cst_10 : FVec F S_ .f32 := constant S_ .f32 0x7F800000#32
  let main_v30 : FVec F S1x32 .f32 := broadcastInDim S1x32 ![] bcast_S_S1x32 main_cst_10
  let main_v31 : IVec S1x32 1 := cmpf .olt main_v29 main_v30
  let main_c_11 : IVec S_ 1 := constantI S_ 1 1#1
  let main_v32 : IVec S_ 1 := (fun x v => Host.reduce IntOp.andi x v reducesTo_S1x32_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S1600000x16 .f32) (main_arg3 : FVec F S64x128 .f32) (main_arg4 : FVec F S64 .f32) (main_arg5 : FVec F S32x16 .f32) (main_arg6 : FVec F S32 .f32) (main_arg7 : FVec F S1x32 .f32) (main_arg8 : FVec F S1 .f32) (main_arg9 : FVec F S_ .f32) (main_arg10 : FVec F S64 .f32) (main_arg11 : FVec F S64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S64x128 : Shape := ⟨2, ![64, 128]⟩
abbrev S64 : Shape := ⟨1, ![64]⟩
abbrev S32x16 : Shape := ⟨2, ![32, 16]⟩
abbrev S32 : Shape := ⟨1, ![32]⟩
abbrev S1x32 : Shape := ⟨2, ![1, 32]⟩
abbrev S1 : Shape := ⟨1, ![1]⟩
abbrev S_ : Shape := ⟨0, ![]⟩
abbrev S1600000x1 : Shape := ⟨2, ![1600000, 1]⟩
abbrev S25000x16 : Shape := ⟨2, ![25000, 16]⟩
abbrev S25000x1 : Shape := ⟨2, ![25000, 1]⟩
abbrev S16x32 : Shape := ⟨2, ![16, 32]⟩
abbrev S25000x32 : Shape := ⟨2, ![25000, 32]⟩
abbrev S32x1 : Shape := ⟨2, ![32, 1]⟩
abbrev S1x1 : Shape := ⟨2, ![1, 1]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S128x64 : Shape := ⟨2, ![128, 64]⟩
abbrev S100000 : Shape := ⟨1, ![100000]⟩
abbrev S1x1600000 : Shape := ⟨2, ![1, 1600000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 106
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S64x128, .f32⟩
  | .hbm, ⟨4, _⟩ => ⟨S64, .f32⟩
  | .hbm, ⟨5, _⟩ => ⟨S32x16, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1600000x1, .f32⟩
  | .hbm, ⟨14, _⟩ => ⟨S1600000, .f32⟩
  | .hbm, ⟨15, _⟩ => ⟨S100000x64, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S100000, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000, .f32⟩
  | .hbm, ⟨57, _⟩ => ⟨S1700000, .f32⟩
  | .hbm, ⟨58, _⟩ => ⟨S1700000x1, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S1x1, .f32⟩
  | .hbm, ⟨78, _⟩ => ⟨S100000x64, .f32⟩
  | .hbm, ⟨79, _⟩ => ⟨S1x64, .f32⟩
  | .hbm, ⟨80, _⟩ => ⟨S1x64, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64, .f32⟩
  | .hbm, ⟨101, _⟩ => ⟨S64, .f32⟩
  | .hbm, ⟨102, _⟩ => ⟨S64, .f32⟩
  | .hbm, ⟨103, _⟩ => ⟨S64, .f32⟩
  | .hbm, ⟨104, _⟩ => ⟨S64, .f32⟩
  | .hbm, ⟨105, _⟩ => ⟨S100000x64, .f32⟩
  | .local _ .vmem, ⟨0, _⟩ => ⟨S25000x16, .f32⟩
  | .local _ .vmem, ⟨1, _⟩ => ⟨S25000x16, .f32⟩
  | .local _ .vmem, ⟨2, _⟩ => ⟨S32x16, .f32⟩
  | .local _ .vmem, ⟨3, _⟩ => ⟨S32, .f32⟩
  | .local _ .vmem, ⟨4, _⟩ => ⟨S1x32, .f32⟩
  | .local _ .vmem, ⟨5, _⟩ => ⟨S1, .f32⟩
  | .local _ .vmem, ⟨6, _⟩ => ⟨S25000x1, .f32⟩
  | .local _ .vmem, ⟨7, _⟩ => ⟨S25000x1, .f32⟩
  | .local _ .vmem, ⟨8, _⟩ => ⟨S10000x128, .f32⟩
  | .local _ .vmem, ⟨9, _⟩ => ⟨S10000x128, .f32⟩
  | .local _ .vmem, ⟨10, _⟩ => ⟨S64x128, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S1x1, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S64, .f32⟩
  | .local _ .vmem, ⟨23, _⟩ => ⟨S64, .f32⟩
  | .local _ .vmem, ⟨24, _⟩ => ⟨S10000x64, .f32⟩
  | .local _ .vmem, ⟨25, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52_0 : Ref sig .tc := ⟨.hbm, 78, rfl⟩
abbrev main_v52_1 : Ref sig .tc := ⟨.hbm, 79, rfl⟩
abbrev main_v52_2 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S25000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S25000x16_S25000x16_0_0 : ∀ a, (![0, 0] : Fin 2 → Nat) a + S25000x16.size a ≤ S25000x16.size a
  h_S25000x16 : 0 < S25000x16.numel
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  transposes_S32x16_p1_0_S16x32 : S32x16.Transposes [1, 0] S16x32
  inb_S32_S32_0 : ∀ a, (![0] : Fin 1 → Nat) a + S32.size a ≤ S32.size a
  h_S32 : 0 < S32.numel
  shapeCasts_S32_S1x32 : S32.ShapeCasts S1x32
  broadcasts_S1x32_S25000x32 : S1x32.Broadcasts S25000x32
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  inb_S1_S1_0 : ∀ a, (![0] : Fin 1 → Nat) a + S1.size a ≤ S1.size a
  h_S1 : 0 < S1.numel
  shapeCasts_S1_S1x1 : S1.ShapeCasts S1x1
  broadcasts_S1x1_S25000x1 : S1x1.Broadcasts S25000x1
  inb_S25000x1_S25000x1_0_0 : ∀ a, (![0, 0] : Fin 2 → Nat) a + S25000x1.size a ≤ S25000x1.size a
  h_S25000x1 : 0 < S25000x1.numel
  shapeCasts_S1600000x1_S1600000 : S1600000x1.ShapeCasts S1600000
  inb_S10000x128_S10000x128_0_0 : ∀ a, (![0, 0] : Fin 2 → Nat) a + S10000x128.size a ≤ S10000x128.size a
  h_S10000x128 : 0 < S10000x128.numel
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S_S1x1 : S_.ShapeCasts S1x1
  inb_S1x64_S1x64_0_0 : ∀ a, (![0, 0] : Fin 2 → Nat) a + S1x64.size a ≤ S1x64.size a
  h_S1x64 : 0 < S1x64.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S10000x64_S10000x64 : S10000x64.ShapeCasts S10000x64
  shapeCasts_S1x64_S1x64 : S1x64.ShapeCasts S1x64
  reduces_S10000x64_S64 : S10000x64.Reduces [0] S64
  shapeCasts_S64_S1x64 : S64.ShapeCasts S1x64
  shapeCasts_S1x64_S64 : S1x64.ShapeCasts S64
  bcast_S_S64 : S_.BroadcastsInDim S64 (![] : Fin 0 → Fin S64.rank)
  inb_S64_S64_0 : ∀ a, (![0] : Fin 1 → Nat) a + S64.size a ≤ S64.size a
  h_S64 : 0 < S64.numel
  shapeCasts_S64_S64 : S64.ShapeCasts S64
  broadcasts_S1x64_S10000x64 : S1x64.Broadcasts S10000x64
  dot_S25000x16_S16x32_S25000x32_1_0_0_1_n_n_wf : DotDims.WF S25000x16 S16x32 S25000x32 [1] [0] [0] [1] [] []
  dot_S25000x32_S32x1_S25000x1_1_0_0_1_n_n_wf : DotDims.WF S25000x32 S32x1 S25000x1 [1] [0] [0] [1] [] []
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x16.size a ≤ S1600000x16.size a
  hwx0_0 : ∀ i : grid0.Coords, EltTy.bits .f32 = 32 ∨ (Rect.block (s := S1600000x16) S25000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .f32 = 32 ∨ (Rect.block (s := S32x16) S32x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S25000x1.size a ≤ S1600000x1.size a
  hwx0_5 : ∀ i : grid0.Coords, EltTy.bits .f32 = 32 ∨ (Rect.block (s := S1600000x1) S25000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def dot_S25000x16_S16x32_S25000x32_1_0_0_1_n_n : DotDims S25000x16 S16x32 S25000x32 where
  lhsContracting := [1]
  rhsContracting := [0]
  lhsNonContracting := [0]
  rhsNonContracting := [1]
  lhsBatch := []
  rhsBatch := []
  wf := dot_S25000x16_S16x32_S25000x32_1_0_0_1_n_n_wf
def dot_S25000x32_S32x1_S25000x1_1_0_0_1_n_n : DotDims S25000x32 S32x1 S25000x1 where
  lhsContracting := [1]
  rhsContracting := [0]
  lhsNonContracting := [0]
  rhsNonContracting := [1]
  lhsBatch := []
  rhsBatch := []
  wf := dot_S25000x32_S32x1_S25000x1_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg2) S25000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S25000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52_0) S10000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52_1) S1x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52_2) S1x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S64x128 : Shape := ⟨2, ![64, 128]⟩
abbrev S64 : Shape := ⟨1, ![64]⟩
abbrev S32x16 : Shape := ⟨2, ![32, 16]⟩
abbrev S32 : Shape := ⟨1, ![32]⟩
abbrev S1x32 : Shape := ⟨2, ![1, 32]⟩
abbrev S1 : Shape := ⟨1, ![1]⟩
abbrev S_ : Shape := ⟨0, ![]⟩
abbrev S16x32 : Shape := ⟨2, ![16, 32]⟩
abbrev S1600000x32 : Shape := ⟨2, ![1600000, 32]⟩
abbrev S32x1 : Shape := ⟨2, ![32, 1]⟩
abbrev S1600000x1 : Shape := ⟨2, ![1600000, 1]⟩
abbrev S1x1 : Shape := ⟨2, ![1, 1]⟩
abbrev S1600000 : Shape := ⟨1, ![1600000]⟩
abbrev S100000 : Shape := ⟨1, ![100000]⟩
abbrev S1x1600000 : Shape := ⟨2, ![1, 1600000]⟩
abbrev S1700000 : Shape := ⟨1, ![1700000]⟩
abbrev S1700000x1 : Shape := ⟨2, ![1700000, 1]⟩
abbrev S128x64 : Shape := ⟨2, ![128, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S1600000x16, .f32⟩
  | 3 => ⟨S64x128, .f32⟩
  | 4 => ⟨S64, .f32⟩
  | 5 => ⟨S32x16, .f32⟩
  | 6 => ⟨S32, .f32⟩
  | 7 => ⟨S1x32, .f32⟩
  | 8 => ⟨S1, .f32⟩
  | 9 => ⟨S_, .f32⟩
  | 10 => ⟨S64, .f32⟩
  | 11 => ⟨S64, .f32⟩
  | 12 => ⟨S64, .f32⟩
  | 13 => ⟨S16x32, .f32⟩
  | 14 => ⟨S1600000x32, .f32⟩
  | 15 => ⟨S1x32, .f32⟩
  | 16 => ⟨S1600000x32, .f32⟩
  | 17 => ⟨S1600000x32, .f32⟩
  | 18 => ⟨S_, .f32⟩
  | 19 => ⟨S1600000x32, .f32⟩
  | 20 => ⟨S1600000x32, .f32⟩
  | 21 => ⟨S32x1, .f32⟩
  | 22 => ⟨S1600000x1, .f32⟩
  | 23 => ⟨S1x1, .f32⟩
  | 24 => ⟨S1600000x1, .f32⟩
  | 25 => ⟨S1600000x1, .f32⟩
  | 26 => ⟨S1600000x1, .f32⟩
  | 27 => ⟨S1600000x1, .f32⟩
  | 28 => ⟨S_, .f32⟩
  | 29 => ⟨S1600000x1, .f32⟩
  | 30 => ⟨S1600000x1, .f32⟩
  | 31 => ⟨S_, .f32⟩
  | 32 => ⟨S1600000x1, .f32⟩
  | 33 => ⟨S1600000x1, .f32⟩
  | 34 => ⟨S1600000, .f32⟩
  | 35 => ⟨S100000, .i32⟩
  | 36 => ⟨S1x1600000, .i32⟩
  | 37 => ⟨S1600000, .i32⟩
  | 38 => ⟨S1700000, .i32⟩
  | 39 => ⟨S1x1600000, .i32⟩
  | 40 => ⟨S1600000, .i32⟩
  | 41 => ⟨S1700000, .i32⟩
  | 42 => ⟨S_, .f32⟩
  | 43 => ⟨S100000, .f32⟩
  | 44 => ⟨S1700000, .f32⟩
  | 45 => ⟨S_, .f32⟩
  | 46 => ⟨S100000, .f32⟩
  | 47 => ⟨S1700000x1, .i32⟩
  | 48 => ⟨S100000, .f32⟩
  | 49 => ⟨S_, .f32⟩
  | 50 => ⟨S100000, .f32⟩
  | 51 => ⟨S100000, .i1⟩
  | 52 => ⟨S100000, .f32⟩
  | 53 => ⟨S_, .f32⟩
  | 54 => ⟨S_, .f32⟩
  | 55 => ⟨S100000, .f32⟩
  | 56 => ⟨S100000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000, .f32⟩
  | 66 => ⟨S1700000, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000, .f32⟩
  | 76 => ⟨S1700000, .f32⟩
  | 77 => ⟨S128x64, .f32⟩
  | 78 => ⟨S100000x64, .f32⟩
  | 79 => ⟨S1700000x1, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x64, .f32⟩
  | 89 => ⟨S1700000x64, .f32⟩
  | 90 => ⟨S1700000x64, .f32⟩
  | 91 => ⟨S_, .f32⟩
  | 92 => ⟨S100000x64, .f32⟩
  | 93 => ⟨S1700000x1, .i32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .i1⟩
  | 101 => ⟨S100000x64, .f32⟩
  | 102 => ⟨S100000x64, .f32⟩
  | 103 => ⟨S100000x64, .f32⟩
  | 104 => ⟨S_, .f32⟩
  | 105 => ⟨S64, .f32⟩
  | 106 => ⟨S_, .f32⟩
  | 107 => ⟨S64, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S100000x64, .f32⟩
  | 114 => ⟨S_, .f32⟩
  | 115 => ⟨S64, .f32⟩
  | 116 => ⟨S_, .f32⟩
  | 117 => ⟨S64, .f32⟩
  | 118 => ⟨S64, .f32⟩
  | 119 => ⟨S1x64, .f32⟩
  | 120 => ⟨S100000x64, .f32⟩
  | 121 => ⟨S100000x64, .f32⟩
  | 122 => ⟨S_, .f32⟩
  | 123 => ⟨S64, .f32⟩
  | 124 => ⟨S64, .f32⟩
  | 125 => ⟨S64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_v33 : Ref sig .tc := ⟨.hbm, 56, rfl⟩
abbrev main_c : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_c_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_8 : Ref sig .tc := ⟨.hbm, 80, rfl⟩
abbrev main_v53 : Ref sig .tc := ⟨.hbm, 81, rfl⟩
abbrev main_v54 : Ref sig .tc := ⟨.hbm, 82, rfl⟩
abbrev main_c_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_12 : Ref sig .tc := ⟨.hbm, 104, rfl⟩
abbrev main_v73 : Ref sig .tc := ⟨.hbm, 105, rfl⟩
abbrev main_cst_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  transposes_S32x16_S16x32_1_0 : S32x16.Transposes [1, 0] S16x32
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  transposes_S1x32_S32x1_1_0 : S1x32.Transposes [1, 0] S32x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  dot_S1600000x16_S16x32_S1600000x32_1_0_0_1_n_n_wf : DotDims.WF S1600000x16 S16x32 S1600000x32 [1] [0] [0] [1] [] []
  dot_S1600000x32_S32x1_S1600000x1_1_0_0_1_n_n_wf : DotDims.WF S1600000x32 S32x1 S1600000x1 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def dot_S1600000x32_S32x1_S1600000x1_1_0_0_1_n_n : DotDims S1600000x32 S32x1 S1600000x1 where
  lhsContracting := [1]
  rhsContracting := [0]
  lhsNonContracting := [0]
  rhsNonContracting := [1]
  lhsBatch := []
  rhsBatch := []
  wf := dot_S1600000x32_S32x1_S1600000x1_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The mathematics of the claim, stated once over plain index functions, with no program in sight.

  A graph layer on 100000 nodes and 1600000 edges (plus one self loop per node):
  * the edge gate: per edge, a two-layer perceptron on its 16 attributes (32 hidden units, rectified), squashed by the
    logistic function to a weight in (0, 1);
  * the node transform: each node's 128 features times a 64 x 128 matrix;
  * the aggregation: weighted degrees by a scatter-add of the gates on the target nodes, the symmetric normalisation
    dinv[source] * gate * dinv[target], the gated messages gathered from the source rows and scatter-added on the
    target rows, plus a bias. Both programs run these very operations on the host, so they are carried here as ONE
    function of the gates and the transformed features, never opened except to see that it keeps finite entries finite;
  * a leaky rectifier with one learnt slope;
  * a column normalisation: the kernel folds it into an affine map x * A + B from the column sums of x and of x * x,
    the reference centres, squares and sums again. The two agree on finite entries because
    sum (x - s*mu)^2 = sum x^2 - 2*s*mu * sum x + n * (s*mu)^2 and mu = (sum x) / n.
-/
import proofs.«158705_j36850819400184_1_alg».proof.Proof.Gen.KernelIdeal
import Idealize.ShloMosaic.PureOps.Ideal
import Idealize.ShloMosaic.Lib.ValueIdx

noncomputable section

open scoped BigOperators

namespace Cert.Spec

open Idealize.ShloMosaic Idealize.ShloMosaic.ValueIdx Cert.KernelIdeal Cert.KernelIdeal.Facts₀ Cert.KernelIdeal.Facts

/-! ## The edge gate and the node transform, entry by entry -/

/-- Hidden unit `k` of edge `e`: the rectified affine form of the edge's 16 attributes. -/
def hidAt (ea : FVec Ideal S1600000x16 .f32) (w1 : FVec Ideal S32x16 .f32) (b1 : FVec Ideal S32 .f32)
    (e : Fin 1600000) (k : Fin 32) : EReal :=
  max ((∑ j : Fin 16, ea (ix2 e j) * w1 (ix2 k j)) + b1 (ix1 k)) 0

/-- The gate of edge `e`: the logistic function of the affine form of its 32 hidden units. -/
def gateAt (ea : FVec Ideal S1600000x16 .f32) (w1 : FVec Ideal S32x16 .f32) (b1 : FVec Ideal S32 .f32)
    (w2 : FVec Ideal S1x32 .f32) (b2 : FVec Ideal S1 .f32) (e : Fin 1600000) : EReal :=
  Ideal.logistic ((∑ k : Fin 32, hidAt ea w1 b1 e k * w2 (ix2 0 k)) + b2 (ix1 0))

/-- The gates as a column [1600000, 1]. -/
def gate (ea : FVec Ideal S1600000x16 .f32) (w1 : FVec Ideal S32x16 .f32) (b1 : FVec Ideal S32 .f32)
    (w2 : FVec Ideal S1x32 .f32) (b2 : FVec Ideal S1 .f32) : FVec Ideal S1600000x1 .f32 :=
  fun i => gateAt ea w1 b1 w2 b2 (i 0)

/-- Feature `o` of node `n` after the linear transform. -/
def xtAt (x : FVec Ideal S100000x128 .f32) (w : FVec Ideal S64x128 .f32) (n : Fin 100000) (o : Fin 64) : EReal :=
  ∑ k : Fin 128, x (ix2 n k) * w (ix2 o k)

/-- The transformed features [100000, 64]. -/
def xt (x : FVec Ideal S100000x128 .f32) (w : FVec Ideal S64x128 .f32) : FVec Ideal S100000x64 .f32 :=
  fun i => xtAt x w (i 0) (i 1)

/-! ## The aggregation, as the host operations both programs run -/

section Agg
variable {F : FTy → Type} [FloatOps F]

/-- Source node of every edge, the self loops last. -/
def srcIdx (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- Target node of every edge, the self loops last. -/
def dstIdx (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A negative index counted from the end, as a column of start indices for a gather. -/
def wrap (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Every edge's weight: the gates, then weight one for each self loop. -/
def ewFull (ew1 : FVec F S1600000 .f32) : FVec F S1700000 .f32 :=
  concatenate S1700000 0 [⟨S1600000, ew1⟩, ⟨S100000, broadcastInDim S100000 ![] bcast_S_S100000 (constant S_ .f32 0x3F800000#32)⟩] concatenates_S1600000_S100000_S1700000_d0

/-- Weighted in-degree of every node. -/
def deg (ew1 : FVec F S1600000 .f32) (ei : IVec S2x1600000 32) : FVec F S100000 .f32 :=
  Host.scatterAdd scatter_S100000_S1700000x1_S1700000_n_0_0_1 (broadcastInDim S100000 ![] bcast_S_S100000 (constant S_ .f32 0x00000000#32))
    (broadcastInDim S1700000x1 ![0] bcast_S1700000_S1700000x1_0 (dstIdx ei)) (ewFull ew1)

/-- Inverse square root of the degree where it is positive, zero elsewhere. -/
def dinv (ew1 : FVec F S1600000 .f32) (ei : IVec S2x1600000 32) : FVec F S100000 .f32 :=
  select (cmpf .ogt (deg ew1 ei) (broadcastInDim S100000 ![] bcast_S_S100000 (constant S_ .f32 0x00000000#32)))
    (Host.rsqrt (deg ew1 ei)) (broadcastInDim S100000 ![] bcast_S_S100000 (constant S_ .f32 0x00000000#32))

/-- The symmetric normalisation of every edge: dinv[source] * weight * dinv[target]. -/
def norm (ew1 : FVec F S1600000 .f32) (ei : IVec S2x1600000 32) : FVec F S1700000 .f32 :=
  mulf (mulf (Host.gather gather_S100000_S1700000x1_S1700000_n_0_n_n_0_1_1 (dinv ew1 ei) (wrap (srcIdx ei))) (ewFull ew1))
    (Host.gather gather_S100000_S1700000x1_S1700000_n_0_n_n_0_1_1 (dinv ew1 ei) (wrap (dstIdx ei)))

/-- Every edge's message: its normalisation times its source node's transformed features. -/
def msgs (ew1 : FVec F S1600000 .f32) (xt : FVec F S100000x64 .f32) (ei : IVec S2x1600000 32) : FVec F S1700000x64 .f32 :=
  mulf (broadcastInDim S1700000x64 ![0, 1] bcast_S1700000x1_S1700000x64_0_1 (broadcastInDim S1700000x1 ![0] bcast_S1700000_S1700000x1_0 (norm ew1 ei)))
    (Host.gather gather_S100000x64_S1700000x1_S1700000x64_1_0_n_n_0_1_164 xt (wrap (srcIdx ei)))

/-- The aggregated features: the messages summed on their target nodes, plus the bias. -/
def agg (ew1 : FVec F S1600000 .f32) (xt : FVec F S100000x64 .f32) (ei : IVec S2x1600000 32) (bias : FVec F S64 .f32) : FVec F S100000x64 .f32 :=
  addf (Host.scatterAdd scatter_S100000x64_S1700000x1_S1700000x64_1_0_0_1 (broadcastInDim S100000x64 ![] bcast_S_S100000x64 (constant S_ .f32 0x00000000#32))
      (broadcastInDim S1700000x1 ![0] bcast_S1700000_S1700000x1_0 (dstIdx ei)) (msgs ew1 xt ei))
    (broadcastInDim S100000x64 ![0, 1] bcast_S1x64_S100000x64_0_1 (broadcastInDim S1x64 ![1] bcast_S64_S1x64_1 bias))

end Agg

/-! ## The rectifier and the normalisation -/

/-- The leaky rectifier: an entry at or above zero is kept, one below is scaled by the slope. -/
def prelu (a : FVec Ideal S_ .f32) (o : FVec Ideal S100000x64 .f32) : FVec Ideal S100000x64 .f32 :=
  fun i => Scalar.select (FloatOps.cmpf (F := Ideal) (φ := .f32) .oge (o i) (Ideal.ofBits .f32 0x00000000#32)) (o i) (a ix0 * o i)

/-- Column sum. -/
def colSum (p : FVec Ideal S100000x64 .f32) (j : Fin 64) : EReal := ∑ n : Fin 100000, p (ix2 n j)

/-- Column sum of squares. -/
def colSumSq (p : FVec Ideal S100000x64 .f32) (j : Fin 64) : EReal := ∑ n : Fin 100000, p (ix2 n j) * p (ix2 n j)

/-- The number of rows, as the programs spell it. -/
abbrev cN : EReal := Ideal.ofBits .f32 0x47C35000#32
/-- Two, as the kernel's host code spells it. -/
abbrev c2 : EReal := Ideal.ofBits .f32 0x40000000#32
/-- The variance floor. -/
abbrev cEps : EReal := Ideal.ofBits .f32 0x3727C5AC#32

/-- The kernel's column mean, from a column sum. -/
def kMean (s1 : Fin 64 → EReal) (j : Fin 64) : EReal := Ideal.div (s1 j) cN
/-- The kernel's scale: weight over the standard deviation, the variance from the two column sums. -/
def kA (s1 s2 : Fin 64 → EReal) (w s : FVec Ideal S64 .f32) (j : Fin 64) : EReal :=
  w (ix1 j) * Ideal.rsqrt ((Ideal.div (s2 j) cN - (kMean s1 j * kMean s1 j) * (c2 * s (ix1 j) - s (ix1 j) * s (ix1 j))) + cEps)
/-- The kernel's shift. -/
def kB (s1 s2 : Fin 64 → EReal) (w b s : FVec Ideal S64 .f32) (j : Fin 64) : EReal :=
  b (ix1 j) - (kA s1 s2 w s j * s (ix1 j)) * kMean s1 j
/-- The kernel's result: the affine map of every entry by its column's scale and shift. -/
def kOut (p : FVec Ideal S100000x64 .f32) (w b s : FVec Ideal S64 .f32) : FVec Ideal S100000x64 .f32 :=
  fun i => p i * kA (colSum p) (colSumSq p) w s (i 1) + kB (colSum p) (colSumSq p) w b s (i 1)

/-- The reference's column mean. -/
def rMean (p : FVec Ideal S100000x64 .f32) (j : Fin 64) : EReal := Ideal.div (Ideal.ofBits .f32 0x00000000#32 + ∑ n : Fin 100000, p (ix2 n j)) cN
/-- The reference's centred entry. -/
def rCen (p : FVec Ideal S100000x64 .f32) (s : FVec Ideal S64 .f32) (n : Fin 100000) (j : Fin 64) : EReal :=
  p (ix2 n j) - s (ix1 j) * rMean p j
/-- The reference's column variance. -/
def rVar (p : FVec Ideal S100000x64 .f32) (s : FVec Ideal S64 .f32) (j : Fin 64) : EReal :=
  Ideal.div (Ideal.ofBits .f32 0x00000000#32 + ∑ n : Fin 100000, rCen p s n j * rCen p s n j) cN
/-- The reference's result. -/
def rOut (p : FVec Ideal S100000x64 .f32) (w b s : FVec Ideal S64 .f32) : FVec Ideal S100000x64 .f32 :=
  fun i => (w (ix1 (i 1)) * rCen p s (i 0) (i 1)) * Ideal.rsqrt (rVar p s (i 1) + cEps) + b (ix1 (i 1))

/-- An affine map of every entry by its column's scale and shift. -/
def affine (p : FVec Ideal S100000x64 .f32) (A B : FVec Ideal S64 .f32) : FVec Ideal S100000x64 .f32 :=
  fun i => p i * A (ix1 (i 1)) + B (ix1 (i 1))

/-- The one entry of a [1, 1] array, as a scalar array. -/
def slope (a2 : FVec Ideal S1x1 .f32) : FVec Ideal S_ .f32 := fun _ => a2 (ix2 0 0)

/-- A [1, 64] row read as a function of the column. -/
def rowOf (r : FVec Ideal S1x64 .f32) (j : Fin 64) : EReal := r (ix2 0 j)

/-! ## The layer up to the rectifier, from the arguments -/

/-- The gates as a flat array [1600000]. -/
def gate1 (ea : FVec Ideal S1600000x16 .f32) (w1 : FVec Ideal S32x16 .f32) (b1 : FVec Ideal S32 .f32)
    (w2 : FVec Ideal S1x32 .f32) (b2 : FVec Ideal S1 .f32) : FVec Ideal S1600000 .f32 :=
  shapeCast S1600000 (gate ea w1 b1 w2 b2) shapeCasts_S1600000x1_S1600000

/-- The aggregated features before the rectifier, from the thirteen arguments' first nine. -/
def feat (x : FVec Ideal S100000x128 .f32) (ei : IVec S2x1600000 32) (ea : FVec Ideal S1600000x16 .f32) (lw : FVec Ideal S64x128 .f32)
    (bias : FVec Ideal S64 .f32) (w1 : FVec Ideal S32x16 .f32) (b1 : FVec Ideal S32 .f32) (w2 : FVec Ideal S1x32 .f32) (b2 : FVec Ideal S1 .f32) :
    FVec Ideal S100000x64 .f32 :=
  agg (gate1 ea w1 b1 w2 b2) (xt x lw) ei bias

/-- The features after the rectifier. -/
def act (x : FVec Ideal S100000x128 .f32) (ei : IVec S2x1600000 32) (ea : FVec Ideal S1600000x16 .f32) (lw : FVec Ideal S64x128 .f32)
    (bias : FVec Ideal S64 .f32) (w1 : FVec Ideal S32x16 .f32) (b1 : FVec Ideal S32 .f32) (w2 : FVec Ideal S1x32 .f32) (b2 : FVec Ideal S1 .f32)
    (a : FVec Ideal S_ .f32) : FVec Ideal S100000x64 .f32 :=
  prelu a (feat x ei ea lw bias w1 b1 w2 b2)

/-- Every entry of a float array is a real number. -/
def AllReal {s : Shape} (v : FVec Ideal s .f32) : Prop := ∀ i, ∃ r : ℝ, v i = (r : EReal)

end Cert.Spec

end
-- ==== Proof.Reg0.lean ====
/-
  The first region's value. Each of the 64 grid points takes 25000 edges: its block of the attribute array against the
  whole weight arrays gives the gates of those edges, and the 64 blocks tile the [1600000, 1] result. So after the
  region the result array is the gate function of the arrays the region found, whatever they were.
-/
import proofs.«158705_j36850819400184_1_alg».proof.Proof.Gen.KernelIdeal.Frame
import proofs.«158705_j36850819400184_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-! ## The two products of the body, entry by entry

Each product contracts the left operand's axis 1 against the right operand's axis 0 into a zero accumulator, so an
entry is the plain sum over the contracted coordinate. -/

/-- The first product's left index at an output index and a contraction index: the output's row … -/
private theorem lhs_mm1_0 (i : S25000x32.Idx) (q : dot_S25000x16_S16x32_S25000x32_1_0_0_1_n_n.contr.Idx) :
    (dot_S25000x16_S16x32_S25000x32_1_0_0_1_n_n.lhsIdx i q 0).val = (i 0).val := by
  unfold DotDims.lhsIdx
  rw [dif_neg (show ¬(0 : Fin S25000x16.rank) ∈ dot_S25000x16_S16x32_S25000x32_1_0_0_1_n_n.lhsBatch by decide), dif_pos (show (0 : Fin S25000x16.rank) ∈ dot_S25000x16_S16x32_S25000x32_1_0_0_1_n_n.lhsNonContracting by decide)]
  rfl
/-- … and the contraction coordinate. -/
private theorem lhs_mm1_1 (i : S25000x32.Idx) (q : dot_S25000x16_S16x32_S25000x32_1_0_0_1_n_n.contr.Idx) :
    (dot_S25000x16_S16x32_S25000x32_1_0_0_1_n_n.lhsIdx i q 1).val = (q ⟨0, by decide⟩).val :=
  dot_S25000x16_S16x32_S25000x32_1_0_0_1_n_n.lhsIdx_val_of_single rfl i q
/-- Its right index: the contraction coordinate … -/
private theorem rhs_mm1_0 (i : S25000x32.Idx) (q : dot_S25000x16_S16x32_S25000x32_1_0_0_1_n_n.contr.Idx) :
    (dot_S25000x16_S16x32_S25000x32_1_0_0_1_n_n.rhsIdx i q 0).val = (q ⟨0, by decide⟩).val :=
  dot_S25000x16_S16x32_S25000x32_1_0_0_1_n_n.rhsIdx_val_of_single rfl i q
/-- … and the output's column. -/
private theorem rhs_mm1_1 (i : S25000x32.Idx) (q : dot_S25000x16_S16x32_S25000x32_1_0_0_1_n_n.contr.Idx) :
    (dot_S25000x16_S16x32_S25000x32_1_0_0_1_n_n.rhsIdx i q 1).val = (i 1).val := by
  unfold DotDims.rhsIdx
  rw [dif_neg (show ¬(1 : Fin S16x32.rank) ∈ dot_S25000x16_S16x32_S25000x32_1_0_0_1_n_n.rhsBatch by decide), dif_pos (show (1 : Fin S16x32.rank) ∈ dot_S25000x16_S16x32_S25000x32_1_0_0_1_n_n.rhsNonContracting by decide)]
  rfl

/-- The first product at row `p` and hidden unit `k`: the sum over the 16 attributes. -/
private theorem mm1_apply (l : FVec Ideal S25000x16 .bf16) (r : FVec Ideal S16x32 .bf16) (p : Fin 25000) (k : Fin 32) :
    matmul dot_S25000x16_S16x32_S25000x32_1_0_0_1_n_n none l r (constant (F := Ideal) S25000x32 .f32 0x00000000#32) (ix2 p k)
      = ∑ j : Fin 16, l (ix2 p j) * r (ix2 j k) := by
  simp only [matmul]
  rw [Ideal.matmul_constant_zero_apply, ← Equiv.sum_comp (ValueIdx.contrEquiv1 dot_S25000x16_S16x32_S25000x32_1_0_0_1_n_n 16 rfl rfl).symm]
  refine Finset.sum_congr rfl fun j _ => ?_
  have hk := ValueIdx.contrEquiv1_symm_val dot_S25000x16_S16x32_S25000x32_1_0_0_1_n_n 16 rfl rfl j
  have el : dot_S25000x16_S16x32_S25000x32_1_0_0_1_n_n.lhsIdx (ix2 p k) ((ValueIdx.contrEquiv1 dot_S25000x16_S16x32_S25000x32_1_0_0_1_n_n 16 rfl rfl).symm j) = ix2 p j := funext fun a => Fin.ext (by
    match a with
    | ⟨0, _⟩ => exact lhs_mm1_0 _ _
    | ⟨1, _⟩ => exact (lhs_mm1_1 _ _).trans hk)
  have er : dot_S25000x16_S16x32_S25000x32_1_0_0_1_n_n.rhsIdx (ix2 p k) ((ValueIdx.contrEquiv1 dot_S25000x16_S16x32_S25000x32_1_0_0_1_n_n 16 rfl rfl).symm j) = ix2 j k := funext fun a => Fin.ext (by
    match a with
    | ⟨0, _⟩ => exact (rhs_mm1_0 _ _).trans hk
    | ⟨1, _⟩ => exact rhs_mm1_1 _ _)
  rw [el, er]

/-- The second product's left index at an output index and a contraction index: the output's row … -/
private theorem lhs_mm2_0 (i : S25000x1.Idx) (q : dot_S25000x32_S32x1_S25000x1_1_0_0_1_n_n.contr.Idx) :
    (dot_S25000x32_S32x1_S25000x1_1_0_0_1_n_n.lhsIdx i q 0).val = (i 0).val := by
  unfold DotDims.lhsIdx
  rw [dif_neg (show ¬(0 : Fin S25000x32.rank) ∈ dot_S25000x32_S32x1_S25000x1_1_0_0_1_n_n.lhsBatch by decide), dif_pos (show (0 : Fin S25000x32.rank) ∈ dot_S25000x32_S32x1_S25000x1_1_0_0_1_n_n.lhsNonContracting by decide)]
  rfl
/-- … and the contraction coordinate. -/
private theorem lhs_mm2_1 (i : S25000x1.Idx) (q : dot_S25000x32_S32x1_S25000x1_1_0_0_1_n_n.contr.Idx) :
    (dot_S25000x32_S32x1_S25000x1_1_0_0_1_n_n.lhsIdx i q 1).val = (q ⟨0, by decide⟩).val :=
  dot_S25000x32_S32x1_S25000x1_1_0_0_1_n_n.lhsIdx_val_of_single rfl i q
/-- Its right index: the contraction coordinate … -/
private theorem rhs_mm2_0 (i : S25000x1.Idx) (q : dot_S25000x32_S32x1_S25000x1_1_0_0_1_n_n.contr.Idx) :
    (dot_S25000x32_S32x1_S25000x1_1_0_0_1_n_n.rhsIdx i q 0).val = (q ⟨0, by decide⟩).val :=
  dot_S25000x32_S32x1_S25000x1_1_0_0_1_n_n.rhsIdx_val_of_single rfl i q
/-- … and the output's column. -/
private theorem rhs_mm2_1 (i : S25000x1.Idx) (q : dot_S25000x32_S32x1_S25000x1_1_0_0_1_n_n.contr.Idx) :
    (dot_S25000x32_S32x1_S25000x1_1_0_0_1_n_n.rhsIdx i q 1).val = (i 1).val := by
  unfold DotDims.rhsIdx
  rw [dif_neg (show ¬(1 : Fin S32x1.rank) ∈ dot_S25000x32_S32x1_S25000x1_1_0_0_1_n_n.rhsBatch by decide), dif_pos (show (1 : Fin S32x1.rank) ∈ dot_S25000x32_S32x1_S25000x1_1_0_0_1_n_n.rhsNonContracting by decide)]
  rfl

/-- The second product at row `p`: the sum over the 32 hidden units. -/
private theorem mm2_apply (l : FVec Ideal S25000x32 .bf16) (r : FVec Ideal S32x1 .bf16) (p : Fin 25000) (q : Fin 1) :
    matmul dot_S25000x32_S32x1_S25000x1_1_0_0_1_n_n none l r (constant (F := Ideal) S25000x1 .f32 0x00000000#32) (ix2 p q)
      = ∑ k : Fin 32, l (ix2 p k) * r (ix2 k q) := by
  simp only [matmul]
  rw [Ideal.matmul_constant_zero_apply, ← Equiv.sum_comp (ValueIdx.contrEquiv1 dot_S25000x32_S32x1_S25000x1_1_0_0_1_n_n 32 rfl rfl).symm]
  refine Finset.sum_congr rfl fun k _ => ?_
  have hk := ValueIdx.contrEquiv1_symm_val dot_S25000x32_S32x1_S25000x1_1_0_0_1_n_n 32 rfl rfl k
  have el : dot_S25000x32_S32x1_S25000x1_1_0_0_1_n_n.lhsIdx (ix2 p q) ((ValueIdx.contrEquiv1 dot_S25000x32_S32x1_S25000x1_1_0_0_1_n_n 32 rfl rfl).symm k) = ix2 p k := funext fun a => Fin.ext (by
    match a with
    | ⟨0, _⟩ => exact lhs_mm2_0 _ _
    | ⟨1, _⟩ => exact (lhs_mm2_1 _ _).trans hk)
  have er : dot_S25000x32_S32x1_S25000x1_1_0_0_1_n_n.rhsIdx (ix2 p q) ((ValueIdx.contrEquiv1 dot_S25000x32_S32x1_S25000x1_1_0_0_1_n_n 32 rfl rfl).symm k) = ix2 k q := funext fun a => Fin.ext (by
    match a with
    | ⟨0, _⟩ => exact (rhs_mm2_0 _ _).trans hk
    | ⟨1, _⟩ => exact rhs_mm2_1 _ _)
  rw [el, er]

/-! ## The body's arithmetic at one row of its block

The roundings to the narrower format are the identity on extended reals; each weight matrix is transposed before its
product, so the product reads it at the swapped pair of coordinates; each bias is cast to one row and broadcast down
the rows; the rectifier is the maximum with the zero word, which is the extended real 0. -/

/-- The body's result at row `p` of its block: the logistic function of the affine form of the row's 32 rectified
    hidden units, each the affine form of the row's 16 attributes. -/
private theorem pay_apply (x0 : Vec Ideal S25000x16 .f32) (x1 : Vec Ideal S32x16 .f32) (x2 : Vec Ideal S32 .f32)
    (x3 : Vec Ideal S1x32 .f32) (x4 : Vec Ideal S1 .f32) (p : Fin 25000) (q : Fin 1) :
    k0_pay1 (F := Ideal) x0 x1 x2 x3 x4 (ix2 p q)
      = Ideal.logistic ((∑ k : Fin 32, max ((∑ j : Fin 16, x0 (ix2 p j) * x1 (ix2 k j)) + x2 (ix1 k)) 0 * x3 (ix2 0 k)) + x4 (ix1 0)) := by
  unfold k0_pay1
  show Ideal.logistic (_ + _) = _
  rw [mm2_apply]
  obtain rfl : q = 0 := Subsingleton.elim _ _
  refine congrArg Ideal.logistic (congrArg₂ (· + ·) (Finset.sum_congr rfl fun k _ => ?_) ?_)
  · refine congrArg₂ (· * ·) ?_ ?_
    · show max (matmul dot_S25000x16_S16x32_S25000x32_1_0_0_1_n_n none (truncf .bf16 x0 bitsLt_bf16_f32)
          (transpose S16x32 [1, 0] (truncf .bf16 x1 bitsLt_bf16_f32) transposes_S32x16_p1_0_S16x32)
          (constant (F := Ideal) S25000x32 .f32 0x00000000#32) (ix2 p k)
        + broadcastTo S25000x32 (shapeCast S1x32 x2 shapeCasts_S32_S1x32) broadcasts_S1x32_S25000x32 (ix2 p k))
        (Ideal.ofBits .f32 0x00000000#32) = _
      rw [mm1_apply, broadcastTo_1b_ab_apply, shapeCast_a_1a_apply, Ideal.ofBits_zero_f32]
      refine congrArg₂ max (congrArg₂ (· + ·) (Finset.sum_congr rfl fun j _ => ?_) rfl) rfl
      refine congrArg₂ (· * ·) rfl ?_
      exact transpose_ix2_apply _ _ j k
    · exact transpose_ix2_apply _ _ k (0 : Fin 1)
  · rw [broadcastTo_1b_ab_apply, shapeCast_a_1a_apply]

/-- One row of a block whose attribute row is row `e` of the whole attribute array: the body's result there is the
    gate of edge `e`. -/
private theorem gate_row (ea : FVec Ideal S1600000x16 .f32) (w1 : FVec Ideal S32x16 .f32) (b1 : FVec Ideal S32 .f32)
    (w2 : FVec Ideal S1x32 .f32) (b2 : FVec Ideal S1 .f32) (x0 : Vec Ideal S25000x16 .f32)
    (e : Fin 1600000) (p : Fin 25000) (q : Fin 1) (hx0 : ∀ j : Fin 16, x0 (ix2 p j) = ea (ix2 e j)) :
    k0_pay1 (F := Ideal) x0 w1 b1 w2 b2 (ix2 p q) = Spec.gateAt ea w1 b1 w2 b2 e := by
  rw [pay_apply]
  unfold Spec.gateAt Spec.hidAt
  simp only [hx0]

/-! ## From the blocks to the array

At point `t` the attribute window and the result window sit at block `t` along the rows, rows `25000 t` to
`25000 t + 24999`; the four weight and bias windows are whole arrays at block zero. So what point `t` writes back is
rows `25000 t …` of the gate function, and the 64 blocks cover the 1600000 rows. -/

private theorem hz2 : (![0, 0] : Fin 2 → Nat) = fun _ => 0 := funext fun a => by fin_cases a <;> rfl
private theorem hz1 : (![0] : Fin 1 → Nat) = fun _ => 0 := funext fun a => by fin_cases a <;> rfl

/-- The index maps over the grid: the attribute window and the result window are at block `t` along the rows at
    point `t`, and every other block index is zero. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The first weight array's window is the whole array at every point. -/
private theorem iblk1_eq (c : Dev nD) (t : Fin cfg0.N) : (iblk0 V c 1 t : Vec Ideal S32x16 .f32) = V c main_arg5 := by
  obtain ⟨e0, e1, e2, e3, e4, e5, e6, e7, e8, e9⟩ := idx_facts t
  funext y
  show V c main_arg5 (((cfg0.win 1).blk t).view.emb y) = V c main_arg5 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 16 + 1 * (y 1).val = (y 1).val; omega

/-- The first bias array's window is the whole array at every point. -/
private theorem iblk2_eq (c : Dev nD) (t : Fin cfg0.N) : (iblk0 V c 2 t : Vec Ideal S32 .f32) = V c main_arg6 := by
  obtain ⟨e0, e1, e2, e3, e4, e5, e6, e7, e8, e9⟩ := idx_facts t
  funext y
  show V c main_arg6 (((cfg0.win 2).blk t).view.emb y) = V c main_arg6 y
  refine congrArg _ (funext fun a => Fin.ext ?_)
  match a with
  | ⟨0, _⟩ => show win0_2.index t (0 : Fin 1) * 32 + 1 * (y 0).val = (y 0).val; omega

/-- The second weight array's window is the whole array at every point. -/
private theorem iblk3_eq (c : Dev nD) (t : Fin cfg0.N) : (iblk0 V c 3 t : Vec Ideal S1x32 .f32) = V c main_arg7 := by
  obtain ⟨e0, e1, e2, e3, e4, e5, e6, e7, e8, e9⟩ := idx_facts t
  funext y
  show V c main_arg7 (((cfg0.win 3).blk t).view.emb y) = V c main_arg7 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 32 + 1 * (y 1).val = (y 1).val; omega

/-- The second bias array's window is the whole array at every point. -/
private theorem iblk4_eq (c : Dev nD) (t : Fin cfg0.N) : (iblk0 V c 4 t : Vec Ideal S1 .f32) = V c main_arg8 := by
  obtain ⟨e0, e1, e2, e3, e4, e5, e6, e7, e8, e9⟩ := idx_facts t
  funext y
  show V c main_arg8 (((cfg0.win 4).blk t).view.emb y) = V c main_arg8 y
  refine congrArg _ (funext fun a => Fin.ext ?_)
  match a with
  | ⟨0, _⟩ => show win0_4.index t (0 : Fin 1) * 1 + 1 * (y 0).val = (y 0).val; omega

/-- What point `t` writes back is block `t` of the gates of the arrays the region found: row `p` of the attribute
    block is row `25000 t + p` of the attribute array, the row of the result array the block's row `p` goes to. -/
private theorem flushed_eq (c : Dev nD) (t : Fin cfg0.N) :
    (dat0 V c).flushed 5 t = ((cfg0.win 5).blk t).view.read (Elt Ideal)
      (Spec.gate (V c main_arg2) (V c main_arg5) (V c main_arg6) (V c main_arg7) (V c main_arg8)) := by
  show (cfg0.win 5).cut (grid0.coords t) ((dat0 V c).after 5 t) = _
  rw [after0_5]
  unfold out0_5
  rw [View.canon_unit_zero hz2]
  simp only [View.ld_unit_zero (S := S25000x16) hz2, View.ld_unit_zero (S := S32x16) hz2, View.ld_unit_zero (S := S32) hz1,
    View.ld_unit_zero (S := S1x32) hz2, View.ld_unit_zero (S := S1) hz1]
  rw [iblk1_eq, iblk2_eq, iblk3_eq, iblk4_eq]
  obtain ⟨e0, e1, e2, e3, e4, e5, e6, e7, e8, e9⟩ := idx_facts t
  funext y
  obtain ⟨p, q, rfl⟩ : ∃ (p : Fin 25000) (q : Fin 1), y = ix2 p q := ⟨y 0, y 1, eq_ix2 y⟩
  show k0_pay1 (F := Ideal) (iblk0 V c 0 t) (V c main_arg5) (V c main_arg6) (V c main_arg7) (V c main_arg8) (ix2 p q)
    = Spec.gateAt (V c main_arg2) (V c main_arg5) (V c main_arg6) (V c main_arg7) (V c main_arg8)
        (((cfg0.win 5).blk t).view.emb (ix2 p q) 0)
  refine gate_row (V c main_arg2) (V c main_arg5) (V c main_arg6) (V c main_arg7) (V c main_arg8) (iblk0 V c 0 t)
    (((cfg0.win 5).blk t).view.emb (ix2 p q) 0) p q fun j => ?_
  show V c main_arg2 (((cfg0.win 0).blk t).view.emb (ix2 p j)) = V c main_arg2 (ix2 (((cfg0.win 5).blk t).view.emb (ix2 p q) 0) j)
  refine congrArg _ (funext fun a => Fin.ext ?_)
  match a with
  | ⟨0, _⟩ => show win0_0.index t (0 : Fin 2) * 25000 + 1 * p.val = win0_5.index t (0 : Fin 2) * 25000 + 1 * p.val; omega
  | ⟨1, _⟩ => show win0_0.index t (1 : Fin 2) * 16 + 1 * j.val = j.val; omega

/-- An index of the result array is in point `t`'s block iff each coordinate is in the block's range on its axis. -/
private theorem mem_blk (t : Fin cfg0.N) (i : S1600000x1.Idx) :
    i ∈ ((cfg0.win 5).blk t).view.set ↔ ∀ a : Fin 2, win0_5.index t a * S25000x1.size a ≤ (i a).val ∧ (i a).val < win0_5.index t a * S25000x1.size a + S25000x1.size a := by
  show i ∈ ((View.whole main_v0).slice (win0_5.rect t)).set ↔ _
  rw [View.set_slice_whole, Rect.mem_set_unit]
  exact Iff.rfl

/-- Row `r` of the result array is in the block of point `r / 25000`, which writes its block back. -/
private theorem cover (i : S1600000x1.Idx) :
    ∃ t : Fin cfg0.N, (cfg0.win 5).flush t = true ∧ i ∈ ((cfg0.win 5).blk t).view.set := by
  have hi0 : (i 0).val < 1600000 := (i 0).isLt
  have hi1 : (i 1).val < 1 := (i 1).isLt
  have hN : cfg0.N = 64 := N_0
  obtain ⟨t, ht⟩ : ∃ t : Fin cfg0.N, t.val = (i 0).val / 25000 := ⟨⟨(i 0).val / 25000, by rw [hN]; omega⟩, rfl⟩
  obtain ⟨e0, e1, e2, e3, e4, e5, e6, e7, e8, e9⟩ := idx_facts t
  refine ⟨t, flush0_5 t, ?_⟩
  rw [mem_blk]
  intro a
  match a with
  | ⟨0, _⟩ => show win0_5.index t (0 : Fin 2) * 25000 ≤ (i 0).val ∧ (i 0).val < win0_5.index t (0 : Fin 2) * 25000 + 25000; omega
  | ⟨1, _⟩ => show win0_5.index t (1 : Fin 2) * 1 ≤ (i 1).val ∧ (i 1).val < win0_5.index t (1 : Fin 2) * 1 + 1; omega

/-- After region 0 its output array holds the gates of the attribute and weight arrays as the region found them. -/
theorem arrAt_gate (c : Dev nD) :
    (dat0 V c).arrAt 5 cfg0.N = Spec.gate (V c main_arg2) (V c main_arg5) (V c main_arg6) (V c main_arg7) (V c main_arg8) := by
  exact (dat0 V c).arrAt_eq_of_cover 5
    (Spec.gate (V c main_arg2) (V c main_arg5) (V c main_arg6) (V c main_arg7) (V c main_arg8))
    (fun t _ => flushed_eq V c t) cover

end Cert.KernelIdeal.Reg0

end
-- ==== Proof.Reg1.lean ====
/-
  The second region's value. Each of the 10 grid points takes 10000 nodes: its block of the feature array times the
  transposed weight matrix, and the 10 blocks tile the [100000, 64] result.
-/
import proofs.«158705_j36850819400184_1_alg».proof.Proof.Gen.KernelIdeal.Frame
import proofs.«158705_j36850819400184_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-! ## The body's value at an index

The body rounds both operands (the identity on extended reals), transposes the weights and contracts the feature
block's axis 1 against the transposed weights' axis 0 into a zero accumulator. -/

/-- The left operand's index at an output index and a contraction index: the output's row … -/
private theorem lhs_ax0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- … and the contraction coordinate. -/
private theorem lhs_ax1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's index: the contraction coordinate … -/
private theorem rhs_ax0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- … and the output's column. -/
private theorem rhs_ax1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's value at row p, column q of its block: the row of the feature block against the row of the weights. -/
private theorem pay_apply (x0 : Vec Ideal S10000x128 .f32) (x1 : Vec Ideal S64x128 .f32) (p : Fin 10000) (q : Fin 64) :
    k1_pay1 (F := Ideal) x0 x1 (ix2 p q) = ∑ k : Fin 128, x0 (ix2 p k) * x1 (ix2 q k) := by
  unfold k1_pay1
  refine (Ideal.matmul_constant_zero_apply dot_S10000x128_S128x64_S10000x64_1_0_0_1_n_n none _ _ (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_ax0 _ _
    | ⟨1, _⟩ => exact (lhs_ax1 _ _).trans hk)
  rw [el]
  refine congrArg (x0 (ix2 p k) * ·) ?_
  refine transpose_apply [1, 0] _ transposes_S64x128_p1_0_S128x64 _ (ix2 q k) (fun b => ?_)
  match b with
  | ⟨0, _⟩ => exact ((rhs_ax0 (ix2 p q) _).trans hk).symm
  | ⟨1, _⟩ => exact (rhs_ax1 (ix2 p q) _).symm

/-! ## From blocks to the array -/

/-- The zero offsets of a whole-buffer access. -/
private theorem hz : (![0, 0] : Fin 2 → Nat) = fun _ => 0 := funext fun a => by fin_cases a <;> rfl

/-- The index maps over the grid: at point t the feature block and the result block are the t-th of their arrays, the
    weight block is the whole matrix. -/
private theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Row p of the feature block at point t is row 10000 t + p of the feature array. -/
private theorem blk0_read (c : Dev nD) (t : Fin cfg1.N) (p : Fin 10000) (k : Fin 128) (n : Fin 100000)
    (hn : n.val = t.val * 10000 + p.val) :
    (iblk1 V c 0 t : Vec Ideal S10000x128 .f32) (ix2 p k) = (V c main_arg0 : S100000x128.Idx → EReal) (ix2 n k) := by
  obtain ⟨e0, e1, -⟩ := idx_facts t
  show V c main_arg0 (((cfg1.win 0).blk t).view.emb (ix2 p k)) = V c main_arg0 (ix2 n k)
  refine congrArg (V c main_arg0) (funext fun a => Fin.ext ?_)
  match a with
  | ⟨0, _⟩ => show win1_0.index t (0 : Fin 2) * 10000 + 1 * p.val = n.val; omega
  | ⟨1, _⟩ => show win1_0.index t (1 : Fin 2) * 128 + 1 * k.val = k.val; omega

/-- The weight block at every point is the weight matrix. -/
private theorem blk1_read (c : Dev nD) (t : Fin cfg1.N) (q : Fin 64) (k : Fin 128) :
    (iblk1 V c 1 t : Vec Ideal S64x128 .f32) (ix2 q k) = (V c main_arg3 : S64x128.Idx → EReal) (ix2 q k) := by
  obtain ⟨-, -, e2, e3, -⟩ := idx_facts t
  show V c main_arg3 (((cfg1.win 1).blk t).view.emb (ix2 q k)) = V c main_arg3 (ix2 q k)
  refine congrArg (V c main_arg3) (funext fun a => Fin.ext ?_)
  match a with
  | ⟨0, _⟩ => show win1_1.index t (0 : Fin 2) * 64 + 1 * q.val = q.val; omega
  | ⟨1, _⟩ => show win1_1.index t (1 : Fin 2) * 128 + 1 * k.val = k.val; omega

/-- The transformed features at row n, column q. -/
private theorem xt_apply (A : FVec Ideal S100000x128 .f32) (W : FVec Ideal S64x128 .f32) (n : Fin 100000) (q : Fin 64) :
    Spec.xt A W (ix2 n q) = ∑ k : Fin 128, A (ix2 n k) * W (ix2 q k) := rfl

/-- What point t writes back is block t of the transformed features of the arrays the region found. -/
private theorem flushed_eq (c : Dev nD) (t : Fin cfg1.N) :
    (dat1 V c).flushed 2 t = ((cfg1.win 2).blk t).view.read (Elt Ideal) (Spec.xt (V c main_arg0) (V c main_arg3)) := by
  show (cfg1.win 2).cut (grid1.coords t) ((dat1 V c).after 2 t) = _
  rw [after1_2]
  unfold out1_2
  rw [View.canon_unit_zero hz]
  simp only [View.ld_unit_zero (S := S10000x128) hz, View.ld_unit_zero (S := S64x128) hz]
  obtain ⟨e0, e1, e2, e3, e4, e5⟩ := idx_facts t
  have ht : t.val < 10 := lt_of_lt_of_eq t.isLt N_1
  funext j
  have hj0 : (j 0).val < 10000 := (j 0).isLt
  have hj1 : (j 1).val < 64 := (j 1).isLt
  have ej : (win1 2).xinj (grid1.coords t) j = ix2 (⟨(j 0).val, hj0⟩ : Fin 10000) (⟨(j 1).val, hj1⟩ : Fin 64) :=
    funext fun a => by match a with | ⟨0, _⟩ => rfl | ⟨1, _⟩ => rfl
  have eo : ((cfg1.win 2).blk t).view.emb j = ix2 (⟨t.val * 10000 + (j 0).val, by omega⟩ : Fin 100000) (⟨(j 1).val, hj1⟩ : Fin 64) := by
    funext a; apply Fin.ext
    match a with
    | ⟨0, _⟩ => show win1_2.index t (0 : Fin 2) * 10000 + 1 * (j 0).val = t.val * 10000 + (j 0).val; omega
    | ⟨1, _⟩ => show win1_2.index t (1 : Fin 2) * 64 + 1 * (j 1).val = (j 1).val; omega
  show k1_pay1 (F := Ideal) (iblk1 V c 0 t) (iblk1 V c 1 t) ((win1 2).xinj (grid1.coords t) j) = Spec.xt (V c main_arg0) (V c main_arg3) (((cfg1.win 2).blk t).view.emb j)
  rw [ej, eo]
  refine (pay_apply (iblk1 V c 0 t) (iblk1 V c 1 t) _ _).trans ?_
  refine Eq.trans ?_ (xt_apply (V c main_arg0) (V c main_arg3) _ _).symm
  refine Finset.sum_congr rfl fun k _ => ?_
  exact congrArg₂ (fun a b : EReal => a * b) (blk0_read V c t _ k _ rfl) (blk1_read V c t _ k)

/-- An index of the result array lies in point t's block iff each coordinate lies in the block's range on its axis. -/
private theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v2).slice (win1_2.rect t)).set ↔ _
  rw [View.set_slice_whole, Rect.mem_set_unit]
  exact Iff.rfl

/-- Row r of the result array lies in the block of point r / 10000, and every point writes its block back. -/
private theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, e4, e5⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- After region 1 its output array holds the transformed features of the arrays the region found. -/
theorem arrAt_xt (c : Dev nD) :
    (dat1 V c).arrAt 2 cfg1.N = Spec.xt (V c main_arg0) (V c main_arg3) :=
  (dat1 V c).arrAt_eq_of_cover 2 (Spec.xt (V c main_arg0) (V c main_arg3)) (fun t _ => flushed_eq V c t) cover

end Cert.KernelIdeal.Reg1

end
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.Reg2.lean ====
/-
  The third region's value. Each of the 10 grid points rectifies its 10000 rows and writes them back, and adds the
  block's column sums, of the entries and of their squares, to two [1, 64] rows that every point revisits: reset at the
  first point, carried from point to point. After the last point the rows hold the sums over all 100000 rows: a sum
  over 10 consecutive runs of 10000.
-/
import proofs.«158705_j36850819400184_1_alg».proof.Proof.Gen.KernelIdeal.Frame
import proofs.«158705_j36850819400184_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«158705_j36850819400184_1_alg».proof.Proof.LibBlockSum

set_option maxRecDepth 16384

noncomputable section

open scoped BigOperators

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-! ## What each control case leaves in each output, as a payload of the blocks it was called with -/

section Pieces
variable {F : FTy → Type} [FloatOps F]

theorem hz : (![0, 0] : Fin 2 → Nat) = fun _ => 0 := funext fun a => by fin_cases a <;> rfl

/-- At the first point the rectified block is stored over whatever the buffer held. -/
theorem out_A_2 (c : Dev nD) (i : grid2.Coords) (a1 : Memref sig .tc .vmem S10000x64 .f32) (h1 : a1.IsWhole) (a2 : Memref sig .tc .vmem S1x1 .f32) (h2 : a2.IsWhole) (a3 : Memref sig .tc .vmem S10000x64 .f32) (h3 : a3.IsWhole) (a4 : Memref sig .tc .vmem S1x64 .f32) (h4 : a4.IsWhole) (a5 : Memref sig .tc .vmem S1x64 .f32) (h5 : a5.IsWhole) (hc : cond2_0 i) (x0 : Vec F S10000x64 .f32) (x1 : Vec F S1x1 .f32) :
    out2_A_2 c i a1 h1 a2 h2 a3 h3 a4 h4 a5 h5 hc x0 x1 = k2_pay3 x1 x0 := by
  unfold out2_A_2
  rw [View.read_writes_eq_canon _ _ _ (cover2_A_2 c i a1 h1 a2 h2 a3 h3 a4 h4 a5 h5 hc x0 x1)]
  unfold kernelRun2_A
  dsimp only
  sl_unfold_words
  rw [View.canon_unit_zero hz]
  simp only [View.readAt_eq_ld, h1.read_unread, h2.read_unread, View.ld_unit_zero (S := S10000x64) hz, View.ld_unit_zero (S := S1x1) hz]

/-- At a later point too. -/
theorem out_B_2 (c : Dev nD) (i : grid2.Coords) (a1 : Memref sig .tc .vmem S10000x64 .f32) (h1 : a1.IsWhole) (a2 : Memref sig .tc .vmem S1x1 .f32) (h2 : a2.IsWhole) (a3 : Memref sig .tc .vmem S10000x64 .f32) (h3 : a3.IsWhole) (a4 : Memref sig .tc .vmem S1x64 .f32) (h4 : a4.IsWhole) (a5 : Memref sig .tc .vmem S1x64 .f32) (h5 : a5.IsWhole) (hc : ¬cond2_0 i) (x0 : Vec F S10000x64 .f32) (x1 : Vec F S1x1 .f32) (xo3 xo4 : Vec F S1x64 .f32) :
    out2_B_2 c i a1 h1 a2 h2 a3 h3 a4 h4 a5 h5 hc x0 x1 xo3 xo4 = k2_pay3 x1 x0 := by
  unfold out2_B_2
  rw [View.read_writes_eq_canon _ _ _ (cover2_B_2 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, View.ld_unit_zero (S := S10000x64) hz, View.ld_unit_zero (S := S1x1) hz]

/-- At the first point the row of sums is reset to the zero row, read back, and the block's column sums added. -/
theorem out_A_3 (c : Dev nD) (i : grid2.Coords) (a1 : Memref sig .tc .vmem S10000x64 .f32) (h1 : a1.IsWhole) (a2 : Memref sig .tc .vmem S1x1 .f32) (h2 : a2.IsWhole) (a3 : Memref sig .tc .vmem S10000x64 .f32) (h3 : a3.IsWhole) (a4 : Memref sig .tc .vmem S1x64 .f32) (h4 : a4.IsWhole) (a5 : Memref sig .tc .vmem S1x64 .f32) (h5 : a5.IsWhole) (hc : cond2_0 i) (x0 : Vec F S10000x64 .f32) (x1 : Vec F S1x1 .f32) :
    out2_A_3 c i a1 h1 a2 h2 a3 h3 a4 h4 a5 h5 hc x0 x1 = k2_pay4 x1 x0 (k2_pay1 (F := F)) := by
  unfold out2_A_3
  rw [View.read_writes_eq_canon _ _ _ (cover2_A_3 c i a1 h1 a2 h2 a3 h3 a4 h4 a5 h5 hc x0 x1)]
  unfold kernelRun2_A
  dsimp only
  sl_unfold_words
  rw [View.canon_cons_unit_zero (S := S1x64) hz, View.readCov_unit_zero (S := S1x64) _ hz]
  simp only [View.readAt_eq_ld, h1.read_unread, h2.read_unread, View.ld_unit_zero (S := S10000x64) hz, View.ld_unit_zero (S := S1x1) hz]

/-- At a later point the block's column sums are added to the row the point before left. -/
theorem out_B_3 (c : Dev nD) (i : grid2.Coords) (a1 : Memref sig .tc .vmem S10000x64 .f32) (h1 : a1.IsWhole) (a2 : Memref sig .tc .vmem S1x1 .f32) (h2 : a2.IsWhole) (a3 : Memref sig .tc .vmem S10000x64 .f32) (h3 : a3.IsWhole) (a4 : Memref sig .tc .vmem S1x64 .f32) (h4 : a4.IsWhole) (a5 : Memref sig .tc .vmem S1x64 .f32) (h5 : a5.IsWhole) (hc : ¬cond2_0 i) (x0 : Vec F S10000x64 .f32) (x1 : Vec F S1x1 .f32) (xo3 xo4 : Vec F S1x64 .f32) :
    out2_B_3 c i a1 h1 a2 h2 a3 h3 a4 h4 a5 h5 hc x0 x1 xo3 xo4 = k2_pay4 x1 x0 xo3 := by
  unfold out2_B_3
  rw [View.read_writes_eq_canon _ _ _ (cover2_B_3 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, h4.read_unread, View.ld_unit_zero (S := S10000x64) hz, View.ld_unit_zero (S := S1x1) hz, View.ld_unit_zero (S := S1x64) hz]

/-- The same for the row of sums of squares, at the first point -/
theorem out_A_4 (c : Dev nD) (i : grid2.Coords) (a1 : Memref sig .tc .vmem S10000x64 .f32) (h1 : a1.IsWhole) (a2 : Memref sig .tc .vmem S1x1 .f32) (h2 : a2.IsWhole) (a3 : Memref sig .tc .vmem S10000x64 .f32) (h3 : a3.IsWhole) (a4 : Memref sig .tc .vmem S1x64 .f32) (h4 : a4.IsWhole) (a5 : Memref sig .tc .vmem S1x64 .f32) (h5 : a5.IsWhole) (hc : cond2_0 i) (x0 : Vec F S10000x64 .f32) (x1 : Vec F S1x1 .f32) :
    out2_A_4 c i a1 h1 a2 h2 a3 h3 a4 h4 a5 h5 hc x0 x1 = k2_pay5 x1 x0 (k2_pay2 (F := F)) := by
  unfold out2_A_4
  rw [View.read_writes_eq_canon _ _ _ (cover2_A_4 c i a1 h1 a2 h2 a3 h3 a4 h4 a5 h5 hc x0 x1)]
  unfold kernelRun2_A
  dsimp only
  sl_unfold_words
  rw [View.canon_cons_unit_zero (S := S1x64) hz, View.readCov_unit_zero (S := S1x64) _ hz]
  simp only [View.readAt_eq_ld, h1.read_unread, h2.read_unread, View.ld_unit_zero (S := S10000x64) hz, View.ld_unit_zero (S := S1x1) hz]

/-- and at a later one. -/
theorem out_B_4 (c : Dev nD) (i : grid2.Coords) (a1 : Memref sig .tc .vmem S10000x64 .f32) (h1 : a1.IsWhole) (a2 : Memref sig .tc .vmem S1x1 .f32) (h2 : a2.IsWhole) (a3 : Memref sig .tc .vmem S10000x64 .f32) (h3 : a3.IsWhole) (a4 : Memref sig .tc .vmem S1x64 .f32) (h4 : a4.IsWhole) (a5 : Memref sig .tc .vmem S1x64 .f32) (h5 : a5.IsWhole) (hc : ¬cond2_0 i) (x0 : Vec F S10000x64 .f32) (x1 : Vec F S1x1 .f32) (xo3 xo4 : Vec F S1x64 .f32) :
    out2_B_4 c i a1 h1 a2 h2 a3 h3 a4 h4 a5 h5 hc x0 x1 xo3 xo4 = k2_pay5 x1 x0 xo4 := by
  unfold out2_B_4
  rw [View.read_writes_eq_canon _ _ _ (cover2_B_4 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, h5.read_unread, View.ld_unit_zero (S := S10000x64) hz, View.ld_unit_zero (S := S1x1) hz, View.ld_unit_zero (S := S1x64) hz]

end Pieces

/-! ## The payloads, entry by entry, over the extended reals -/

/-- One entry through the rectifier of slope `a`: kept at or above zero, scaled by the slope below. -/
def rect (a x : EReal) : EReal :=
  Scalar.select (FloatOps.cmpf (F := Ideal) (φ := .f32) .oge x (Ideal.ofBits .f32 0x00000000#32)) x (a * x)

/-- The one entry of a [1, 1] block. -/
theorem extract00 (x1 : Vec Ideal S1x1 .f32) (h : ∀ a, (![0, 0] : Fin 2 → Nat) a < S1x1.size a) :
    extractAt ![0, 0] x1 h = x1 (ix2 0 0) :=
  congrArg x1 (funext fun a => Fin.ext (by match a with | ⟨0, _⟩ => rfl | ⟨1, _⟩ => rfl))

/-- The rectified block at an entry. -/
theorem pay3_apply (x1 : Vec Ideal S1x1 .f32) (x0 : Vec Ideal S10000x64 .f32) (i : S10000x64.Idx) :
    k2_pay3 (F := Ideal) x1 x0 i = rect (x1 (ix2 0 0)) (x0 i) := by
  unfold k2_pay3
  simp only [shapeCast_self]
  show Scalar.select (FloatOps.cmpf (F := Ideal) (φ := .f32) .oge (x0 i) (Ideal.ofBits .f32 0x00000000#32)) (x0 i)
    (extractAt ![0, 0] x1 inpos_S1x1_p0_0 * x0 i) = _
  rw [extract00]
  rfl

/-- Over result column `q`, the rows of a [10000, 64] block are the indices `(r, q)`. -/
theorem lift_col (h : S10000x64.Reduces [0] S64) (q : Fin 64) (r : Fin 10000) : h.lift (ix1 q) r = ix2 r q :=
  funext fun a => Fin.ext (by
    match a with
    | ⟨0, _⟩ => rfl
    | ⟨1, _⟩ => rfl)

/-- The column sums of a [10000, 64] block, laid as a [1, 64] row, at column `q`. -/
theorem colsum_apply (src : FVec Ideal S10000x64 .f32) (q : Fin 64) :
    shapeCast S1x64 (multiReduction .add [0] S64 src 0x00000000#32 reduces_S10000x64_S64 (.inl rfl) rfl) shapeCasts_S64_S1x64 (ix2 0 q)
      = ∑ r : Fin 10000, src (ix2 r q) := by
  refine (shapeCast_a_1a_apply _ _ 0 q).trans ?_
  refine (Ideal.multiReduction_add_single src 0x00000000#32 reduces_S10000x64_S64 (.inl rfl) rfl (ix1 q)).trans ?_
  exact Finset.sum_congr rfl fun r _ => congrArg src (lift_col reduces_S10000x64_S64 q r)

/-- The row of sums after a point: the row before plus the column sums of the rectified block. -/
theorem pay4_apply (x1 : Vec Ideal S1x1 .f32) (x0 : Vec Ideal S10000x64 .f32) (xo : Vec Ideal S1x64 .f32) (q : Fin 64) :
    k2_pay4 (F := Ideal) x1 x0 xo (ix2 0 q) = xo (ix2 0 q) + ∑ r : Fin 10000, rect (x1 (ix2 0 0)) (x0 (ix2 r q)) := by
  unfold k2_pay4
  simp only [shapeCast_self]
  refine (addf_apply _ _ _).trans ?_
  refine congrArg (xo (ix2 0 q) + ·) ((colsum_apply _ q).trans ?_)
  exact Finset.sum_congr rfl fun r _ => pay3_apply x1 x0 (ix2 r q)

/-- The row of sums of squares after a point. -/
theorem pay5_apply (x1 : Vec Ideal S1x1 .f32) (x0 : Vec Ideal S10000x64 .f32) (xo : Vec Ideal S1x64 .f32) (q : Fin 64) :
    k2_pay5 (F := Ideal) x1 x0 xo (ix2 0 q)
      = xo (ix2 0 q) + ∑ r : Fin 10000, rect (x1 (ix2 0 0)) (x0 (ix2 r q)) * rect (x1 (ix2 0 0)) (x0 (ix2 r q)) := by
  unfold k2_pay5
  simp only [shapeCast_self]
  refine (addf_apply _ _ _).trans ?_
  refine congrArg (xo (ix2 0 q) + ·) ((colsum_apply _ q).trans ?_)
  exact Finset.sum_congr rfl fun r _ => by rw [mulf_apply, pay3_apply]

/-- The reset rows are zero. -/
theorem pay1_apply (i : S1x64.Idx) : k2_pay1 (F := Ideal) i = 0 := Ideal.ofBits_zero_f32
theorem pay2_apply (i : S1x64.Idx) : k2_pay2 (F := Ideal) i = 0 := Ideal.ofBits_zero_f32

/-! ## The blocks a point reads, as parts of the arrays the region finds -/

/-- The block of 10000 rows point `t` reads, -/
abbrev xblk (c : Dev nD) (t : Fin cfg2.N) : Vec Ideal S10000x64 .f32 := iblk2 V c 0 t
/-- the slope's [1, 1] block, the same at every point, -/
abbrev ablk (c : Dev nD) (t : Fin cfg2.N) : Vec Ideal S1x1 .f32 := iblk2 V c 1 t
/-- the array of rows -/
abbrev xarr (c : Dev nD) : FVec Ideal S100000x64 .f32 := V c main_v50
/-- and the slope's array. -/
abbrev aarr (c : Dev nD) : FVec Ideal S1x1 .f32 := V c main_v51

/-- The rectified array. -/
abbrev parr (c : Dev nD) : FVec Ideal S100000x64 .f32 := Spec.prelu (Spec.slope (aarr V c)) (xarr V c)

/-- The grid has ten points. -/
theorem N10 : cfg2.N = 10 := N_2

/-- Where the blocks sit: the row blocks of the input and of the first output at block row `t`, the others at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row `r` of point `t`'s block is row `10000 t + r` of the array. -/
theorem xblk_apply (c : Dev nD) (t : Fin cfg2.N) (r : Fin 10000) (q : Fin 64) (h : 10000 * t.val + r.val < 100000) :
    xblk V c t (ix2 r q) = xarr V c (ix2 ⟨10000 * t.val + r.val, h⟩ q) := by
  obtain ⟨e0, e1, -⟩ := idx_facts t
  show V c main_v50 (((cfg2.win 0).blk t).view.emb (ix2 r q)) = V c main_v50 _
  refine congrArg (V c main_v50) (funext fun a => Fin.ext ?_)
  match a with
  | ⟨0, _⟩ => show win2_0.index t (0 : Fin 2) * 10000 + 1 * r.val = 10000 * t.val + r.val; rw [e0]; omega
  | ⟨1, _⟩ => show win2_0.index t (1 : Fin 2) * 64 + 1 * q.val = q.val; rw [e1]; omega

/-- The slope's block is the slope's array. -/
theorem ablk_apply (c : Dev nD) (t : Fin cfg2.N) : ablk V c t (ix2 0 0) = aarr V c (ix2 0 0) := by
  obtain ⟨-, -, e0, e1, -⟩ := idx_facts t
  show V c main_v51 (((cfg2.win 1).blk t).view.emb (ix2 0 0)) = V c main_v51 _
  refine congrArg (V c main_v51) (funext fun a => Fin.ext ?_)
  match a with
  | ⟨0, _⟩ => show win2_1.index t (0 : Fin 2) * 1 + 1 * 0 = 0; rw [e0]
  | ⟨1, _⟩ => show win2_1.index t (1 : Fin 2) * 1 + 1 * 0 = 0; rw [e1]

/-! ## The running sums -/

/-- The sum of column `q` of the rectified array over the rows of block `s` (an entry past the last row counts zero). -/
def blockSum (c : Dev nD) (q : Fin 64) (s : ℕ) : EReal :=
  ∑ x : Fin 10000, (if h : 10000 * s + x.val < 100000 then parr V c (ix2 ⟨10000 * s + x.val, h⟩ q) else 0)

/-- The same of the squares. -/
def blockSumSq (c : Dev nD) (q : Fin 64) (s : ℕ) : EReal :=
  ∑ x : Fin 10000, (if h : 10000 * s + x.val < 100000 then parr V c (ix2 ⟨10000 * s + x.val, h⟩ q) * parr V c (ix2 ⟨10000 * s + x.val, h⟩ q) else 0)

/-- A rectified entry of point `t`'s block is the rectified array's entry in row `10000 t + r`. -/
theorem rect_blk (c : Dev nD) (t : Fin cfg2.N) (r : Fin 10000) (q : Fin 64) (h : 10000 * t.val + r.val < 100000) :
    rect (ablk V c t (ix2 0 0)) (xblk V c t (ix2 r q)) = parr V c (ix2 ⟨10000 * t.val + r.val, h⟩ q) := by
  rw [xblk_apply V c t r q h, ablk_apply V c t]
  rfl

/-- The column sums of point `t`'s rectified block are block `t`'s sums. -/
theorem blk_colsum (c : Dev nD) (t : Fin cfg2.N) (q : Fin 64) :
    ∑ r : Fin 10000, rect (ablk V c t (ix2 0 0)) (xblk V c t (ix2 r q)) = blockSum V c q t.val := by
  have hN : t.val < 10 := lt_of_lt_of_eq t.isLt N10
  refine Finset.sum_congr rfl fun r _ => ?_
  have h : 10000 * t.val + r.val < 100000 := by have := r.isLt; omega
  rw [dif_pos h]
  exact rect_blk V c t r q h

theorem blk_colsumsq (c : Dev nD) (t : Fin cfg2.N) (q : Fin 64) :
    ∑ r : Fin 10000, rect (ablk V c t (ix2 0 0)) (xblk V c t (ix2 r q)) * rect (ablk V c t (ix2 0 0)) (xblk V c t (ix2 r q))
      = blockSumSq V c q t.val := by
  have hN : t.val < 10 := lt_of_lt_of_eq t.isLt N10
  refine Finset.sum_congr rfl fun r _ => ?_
  have h : 10000 * t.val + r.val < 100000 := by have := r.isLt; omega
  rw [dif_pos h, rect_blk V c t r q h]

/-- After every point the first output's buffer holds the rectified block of that point. -/
theorem outs_1 (c : Dev nD) (t : Fin cfg2.N) : (outsAt2 V c t.val t.isLt).1 = k2_pay3 (ablk V c t) (xblk V c t) := by
  by_cases h0 : t.val % 10 = 0
  · rw [outsAt2_A V c t h0]
    dsimp only
    exact out_A_2 (F := Ideal) c (grid2.coords t) (ms2_0 t) (hs2_0 t) (ms2_1 t) (hs2_1 t) (ms2_2 t) (hs2_2 t) (ms2_3 t) (hs2_3 t) (ms2_4 t) (hs2_4 t) ((hcond2_0 t).mpr h0) (xblk V c t) (ablk V c t)
  · rw [outsAt2_B V c t h0]
    dsimp only
    exact out_B_2 (F := Ideal) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (xblk V c t) (ablk V c t)
      (outsAt2 V c (t.val - 1) (Nat.lt_of_le_of_lt (Nat.sub_le _ _) t.isLt)).2.1 (outsAt2 V c (t.val - 1) (Nat.lt_of_le_of_lt (Nat.sub_le _ _) t.isLt)).2.2

/-- After point `n` the second output's buffer holds, in column `q`, the sums of blocks 0 to `n`. -/
theorem outs_2 (c : Dev nD) : ∀ (n : ℕ) (hn : n < cfg2.N) (q : Fin 64),
    (outsAt2 V c n hn).2.1 (ix2 0 q) = ∑ s ∈ Finset.range (n + 1), blockSum V c q s
  | 0, hn, q => by
    rw [outsAt2_A V c ⟨0, hn⟩ (Nat.zero_mod 10)]
    dsimp only
    refine (congrFun (out_A_3 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod 10)) (xblk V c ⟨0, hn⟩) (ablk V c ⟨0, hn⟩)) (ix2 0 q)).trans ?_
    refine (pay4_apply (ablk V c ⟨0, hn⟩) (xblk V c ⟨0, hn⟩) (k2_pay1 (F := Ideal)) q).trans ?_
    rw [pay1_apply, zero_add, Finset.sum_range_one]
    exact blk_colsum V c ⟨0, hn⟩ q
  | n + 1, hn, q => by
    have hN : cfg2.N = 10 := N10
    have hB : ¬(⟨n + 1, hn⟩ : Fin cfg2.N).val % 10 = 0 := by dsimp only; omega
    rw [outsAt2_B V c ⟨n + 1, hn⟩ hB]
    dsimp only
    refine (congrFun (out_B_3 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => hB ((hcond2_0 ⟨n + 1, hn⟩).mp h)) (xblk V c ⟨n + 1, hn⟩) (ablk V c ⟨n + 1, hn⟩)
      (outsAt2 V c n (Nat.lt_of_succ_lt hn)).2.1 (outsAt2 V c n (Nat.lt_of_succ_lt hn)).2.2) (ix2 0 q)).trans ?_
    refine (pay4_apply (ablk V c ⟨n + 1, hn⟩) (xblk V c ⟨n + 1, hn⟩) (outsAt2 V c n (Nat.lt_of_succ_lt hn)).2.1 q).trans ?_
    rw [outs_2 c n (Nat.lt_of_succ_lt hn) q, Finset.sum_range_succ _ (n + 1)]
    exact congrArg (_ + ·) (blk_colsum V c ⟨n + 1, hn⟩ q)

/-- After point `n` the third output's buffer holds, in column `q`, the sums of squares of blocks 0 to `n`. -/
theorem outs_3 (c : Dev nD) : ∀ (n : ℕ) (hn : n < cfg2.N) (q : Fin 64),
    (outsAt2 V c n hn).2.2 (ix2 0 q) = ∑ s ∈ Finset.range (n + 1), blockSumSq V c q s
  | 0, hn, q => by
    rw [outsAt2_A V c ⟨0, hn⟩ (Nat.zero_mod 10)]
    dsimp only
    refine (congrFun (out_A_4 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod 10)) (xblk V c ⟨0, hn⟩) (ablk V c ⟨0, hn⟩)) (ix2 0 q)).trans ?_
    refine (pay5_apply (ablk V c ⟨0, hn⟩) (xblk V c ⟨0, hn⟩) (k2_pay2 (F := Ideal)) q).trans ?_
    rw [pay2_apply, zero_add, Finset.sum_range_one]
    exact blk_colsumsq V c ⟨0, hn⟩ q
  | n + 1, hn, q => by
    have hN : cfg2.N = 10 := N10
    have hB : ¬(⟨n + 1, hn⟩ : Fin cfg2.N).val % 10 = 0 := by dsimp only; omega
    rw [outsAt2_B V c ⟨n + 1, hn⟩ hB]
    dsimp only
    refine (congrFun (out_B_4 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => hB ((hcond2_0 ⟨n + 1, hn⟩).mp h)) (xblk V c ⟨n + 1, hn⟩) (ablk V c ⟨n + 1, hn⟩)
      (outsAt2 V c n (Nat.lt_of_succ_lt hn)).2.1 (outsAt2 V c n (Nat.lt_of_succ_lt hn)).2.2) (ix2 0 q)).trans ?_
    refine (pay5_apply (ablk V c ⟨n + 1, hn⟩) (xblk V c ⟨n + 1, hn⟩) (outsAt2 V c n (Nat.lt_of_succ_lt hn)).2.2 q).trans ?_
    rw [outs_3 c n (Nat.lt_of_succ_lt hn) q, Finset.sum_range_succ _ (n + 1)]
    exact congrArg (_ + ·) (blk_colsumsq V c ⟨n + 1, hn⟩ q)

/-! ## From the points' write-backs to the arrays after the run -/

/-- Two functions of a [10000, 64] block's indices agree when they agree at every `(r, q)`. -/
theorem ext_blk {α : Type} {f g : S10000x64.Idx → α} (h : ∀ (r : Fin 10000) (q : Fin 64), f (ix2 r q) = g (ix2 r q)) : f = g :=
  funext fun j => (congrArg f (eq_ix2 j)).trans ((h (j 0) (j 1)).trans (congrArg g (eq_ix2 j).symm))

/-- Two functions of a [1, 64] row's indices agree when they agree at every `(0, q)`. -/
theorem ext_row {α : Type} {f g : S1x64.Idx → α} (h : ∀ q : Fin 64, f (ix2 0 q) = g (ix2 0 q)) : f = g :=
  funext fun j => by
    have h0 : j 0 = (0 : Fin 1) := Fin.ext (by have := idx2_lt0 j; show (j 0).val = 0; omega)
    have e : j = ix2 (0 : Fin 1) (j 1) := (eq_ix2 j).trans (congrArg (fun u => ix2 u (j 1)) h0)
    exact (congrArg f e).trans ((h (j 1)).trans (congrArg g e.symm))

/-- What point `t` writes back of the first output is block `t` of the rectified array. -/
theorem flushed2_eq (c : Dev nD) (t : Fin cfg2.N) :
    (dat2 V c).flushed 2 t = ((cfg2.win 2).blk t).view.read (Elt Ideal) (parr V c) := by
  show (cfg2.win 2).cut (grid2.coords t) ((dat2 V c).after 2 t) = _
  rw [after2_2, outs_1 V c t]
  obtain ⟨-, -, -, -, e0, e1, -⟩ := idx_facts t
  have hN : t.val < 10 := lt_of_lt_of_eq t.isLt N10
  refine ext_blk fun r q => ?_
  have h : 10000 * t.val + r.val < 100000 := by have := r.isLt; omega
  show k2_pay3 (ablk V c t) (xblk V c t) (ix2 r q) = parr V c (((cfg2.win 2).blk t).view.emb (ix2 r q))
  refine (pay3_apply (ablk V c t) (xblk V c t) (ix2 r q)).trans ((rect_blk V c t r q h).trans ?_)
  refine congrArg (parr V c) (funext fun a => Fin.ext ?_)
  match a with
  | ⟨0, _⟩ => show 10000 * t.val + r.val = win2_2.index t (0 : Fin 2) * 10000 + 1 * r.val; rw [e0]; omega
  | ⟨1, _⟩ => show q.val = win2_2.index t (1 : Fin 2) * 64 + 1 * q.val; rw [e1]; omega

/-- An index of the array is in point `t`'s block of the first output iff each coordinate is in the block's range. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v52_0).slice (win2_2.rect t)).set ↔ _
  rw [View.set_slice_whole, Rect.mem_set_unit]
  exact Iff.rfl

/-- Row `n` lies in the block of point `n / 10000`. -/
theorem cover2 (i : S100000x64.Idx) : ∃ t : Fin cfg2.N, (cfg2.win 2).flush t = true ∧ i ∈ ((cfg2.win 2).blk t).view.set := by
  have hi0 : (i 0).val < 100000 := idx2_lt0 i
  have hi1 : (i 1).val < 64 := idx2_lt1 i
  obtain ⟨t, ht⟩ : ∃ t : Fin cfg2.N, t.val = (i 0).val / 10000 := ⟨⟨(i 0).val / 10000, by rw [N10]; omega⟩, rfl⟩
  obtain ⟨-, -, -, -, e0, e1, -⟩ := idx_facts t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; rw [e0, ht]; omega
  | ⟨1, _⟩ => show win2_2.index t (1 : Fin 2) * 64 ≤ (i 1).val ∧ (i 1).val < win2_2.index t (1 : Fin 2) * 64 + 64; rw [e1]; omega

/-- A column sum over the 100000 rows is the sum of the ten blocks' sums. -/
theorem colSum_eq (c : Dev nD) (q : Fin 64) : Spec.colSum (parr V c) q = ∑ s ∈ Finset.range 10, blockSum V c q s := by
  unfold Spec.colSum blockSum
  exact Cert.LibBlockSum.sum_fin_blocks 10 10000 (by norm_num) (fun k : Fin 100000 => parr V c (ix2 k q))

theorem colSumSq_eq (c : Dev nD) (q : Fin 64) : Spec.colSumSq (parr V c) q = ∑ s ∈ Finset.range 10, blockSumSq V c q s := by
  unfold Spec.colSumSq blockSumSq
  exact Cert.LibBlockSum.sum_fin_blocks 10 10000 (by norm_num) (fun k : Fin 100000 => parr V c (ix2 k q) * parr V c (ix2 k q))

/-- The row of column sums, -/
abbrev srow (c : Dev nD) : FVec Ideal S1x64 .f32 := fun i : S1x64.Idx => Spec.colSum (parr V c) (i 1)
/-- and of column sums of squares. -/
abbrev sqrow (c : Dev nD) : FVec Ideal S1x64 .f32 := fun i : S1x64.Idx => Spec.colSumSq (parr V c) (i 1)

/-- The block of the second output at any point is the whole row: reading it reads the row. -/
theorem read_blk3 (t : Fin cfg2.N) (G : FVec Ideal S1x64 .f32) (q : Fin 64) :
    ((cfg2.win 3).blk t).view.read (Elt Ideal) G (ix2 (0 : Fin 1) q) = G (ix2 (0 : Fin 1) q) := by
  obtain ⟨-, -, -, -, -, -, e0, e1, -⟩ := idx_facts t
  show G (((cfg2.win 3).blk t).view.emb (ix2 (0 : Fin 1) q)) = G (ix2 (0 : Fin 1) q)
  refine congrArg G (funext fun a => Fin.ext ?_)
  match a with
  | ⟨0, _⟩ => show win2_3.index t (0 : Fin 2) * 1 + 1 * 0 = 0; rw [e0]
  | ⟨1, _⟩ => show win2_3.index t (1 : Fin 2) * 64 + 1 * q.val = q.val; rw [e1]; omega

/-- The same for the third output. -/
theorem read_blk4 (t : Fin cfg2.N) (G : FVec Ideal S1x64 .f32) (q : Fin 64) :
    ((cfg2.win 4).blk t).view.read (Elt Ideal) G (ix2 (0 : Fin 1) q) = G (ix2 (0 : Fin 1) q) := by
  obtain ⟨-, -, -, -, -, -, -, -, e0, e1⟩ := idx_facts t
  show G (((cfg2.win 4).blk t).view.emb (ix2 (0 : Fin 1) q)) = G (ix2 (0 : Fin 1) q)
  refine congrArg G (funext fun a => Fin.ext ?_)
  match a with
  | ⟨0, _⟩ => show win2_4.index t (0 : Fin 2) * 1 + 1 * 0 = 0; rw [e0]
  | ⟨1, _⟩ => show win2_4.index t (1 : Fin 2) * 64 + 1 * q.val = q.val; rw [e1]; omega

/-- The one write-back of the second output, after the last point, writes the row of column sums. -/
theorem flushed3_eq (c : Dev nD) (t : Fin cfg2.N) (hf : (cfg2.win 3).flush t = true) :
    (dat2 V c).flushed 3 t = ((cfg2.win 3).blk t).view.read (Elt Ideal) (srow V c) := by
  have hN : t.val < 10 := lt_of_lt_of_eq t.isLt N10
  have h9 : t.val = 9 := by have := (flush2_3 t).mp hf; omega
  show (cfg2.win 3).cut (grid2.coords t) ((dat2 V c).after 3 t) = _
  rw [after2_3]
  refine ext_row fun q => ?_
  refine Eq.trans ?_ (read_blk3 t (srow V c) q).symm
  show (outsAt2 V c t.val t.isLt).2.1 (ix2 (0 : Fin 1) q) = Spec.colSum (parr V c) q
  refine (outs_2 V c t.val t.isLt q).trans ?_
  rw [colSum_eq V c q, h9]

/-- The one write-back of the third output writes the row of column sums of squares. -/
theorem flushed4_eq (c : Dev nD) (t : Fin cfg2.N) (hf : (cfg2.win 4).flush t = true) :
    (dat2 V c).flushed 4 t = ((cfg2.win 4).blk t).view.read (Elt Ideal) (sqrow V c) := by
  have hN : t.val < 10 := lt_of_lt_of_eq t.isLt N10
  have h9 : t.val = 9 := by have := (flush2_4 t).mp hf; omega
  show (cfg2.win 4).cut (grid2.coords t) ((dat2 V c).after 4 t) = _
  rw [after2_4]
  refine ext_row fun q => ?_
  refine Eq.trans ?_ (read_blk4 t (sqrow V c) q).symm
  show (outsAt2 V c t.val t.isLt).2.2 (ix2 (0 : Fin 1) q) = Spec.colSumSq (parr V c) q
  refine (outs_3 V c t.val t.isLt q).trans ?_
  rw [colSumSq_eq V c q, h9]

/-- The last point's block of the second output is the whole row. -/
theorem cover3 (i : S1x64.Idx) : ∃ t : Fin cfg2.N, (cfg2.win 3).flush t = true ∧ i ∈ ((cfg2.win 3).blk t).view.set := by
  have hi0 : (i 0).val < 1 := idx2_lt0 i
  have hi1 : (i 1).val < 64 := idx2_lt1 i
  obtain ⟨-, -, -, -, -, -, e0, e1, -⟩ := idx_facts t2_9
  refine ⟨t2_9, (flush2_3 t2_9).mpr rfl, ?_⟩
  show i ∈ ((View.whole main_v52_1).slice (win2_3.rect t2_9)).set
  rw [View.set_slice_whole, Rect.mem_set_unit]
  intro a
  match a with
  | ⟨0, _⟩ => show win2_3.index t2_9 (0 : Fin 2) * 1 ≤ (i 0).val ∧ (i 0).val < win2_3.index t2_9 (0 : Fin 2) * 1 + 1; rw [e0]; omega
  | ⟨1, _⟩ => show win2_3.index t2_9 (1 : Fin 2) * 64 ≤ (i 1).val ∧ (i 1).val < win2_3.index t2_9 (1 : Fin 2) * 64 + 64; rw [e1]; omega

/-- The last point's block of the third output is the whole row. -/
theorem cover4 (i : S1x64.Idx) : ∃ t : Fin cfg2.N, (cfg2.win 4).flush t = true ∧ i ∈ ((cfg2.win 4).blk t).view.set := by
  have hi0 : (i 0).val < 1 := idx2_lt0 i
  have hi1 : (i 1).val < 64 := idx2_lt1 i
  obtain ⟨-, -, -, -, -, -, -, -, e0, e1⟩ := idx_facts t2_9
  refine ⟨t2_9, (flush2_4 t2_9).mpr rfl, ?_⟩
  show i ∈ ((View.whole main_v52_2).slice (win2_4.rect t2_9)).set
  rw [View.set_slice_whole, Rect.mem_set_unit]
  intro a
  match a with
  | ⟨0, _⟩ => show win2_4.index t2_9 (0 : Fin 2) * 1 ≤ (i 0).val ∧ (i 0).val < win2_4.index t2_9 (0 : Fin 2) * 1 + 1; rw [e0]; omega
  | ⟨1, _⟩ => show win2_4.index t2_9 (1 : Fin 2) * 64 ≤ (i 1).val ∧ (i 1).val < win2_4.index t2_9 (1 : Fin 2) * 64 + 64; rw [e1]; omega

/-- After region 2 its first output holds the rectified array. -/
theorem arrAt_prelu (c : Dev nD) :
    (dat2 V c).arrAt 2 cfg2.N = Spec.prelu (Spec.slope (V c main_v51)) (V c main_v50) :=
  (dat2 V c).arrAt_eq_of_cover 2 (parr V c) (fun t _ => flushed2_eq V c t) cover2

/-- After region 2 its second output holds the column sums of the rectified array. -/
theorem arrAt_sum (c : Dev nD) :
    (dat2 V c).arrAt 3 cfg2.N = fun i : S1x64.Idx => Spec.colSum (Spec.prelu (Spec.slope (V c main_v51)) (V c main_v50)) (i 1) :=
  (dat2 V c).arrAt_eq_of_cover 3 (srow V c) (flushed3_eq V c) cover3

/-- After region 2 its third output holds the column sums of the squares. -/
theorem arrAt_sumsq (c : Dev nD) :
    (dat2 V c).arrAt 4 cfg2.N = fun i : S1x64.Idx => Spec.colSumSq (Spec.prelu (Spec.slope (V c main_v51)) (V c main_v50)) (i 1) :=
  (dat2 V c).arrAt_eq_of_cover 4 (sqrow V c) (flushed4_eq V c) cover4

end Cert.KernelIdeal.Reg2

end
-- ==== Proof.Reg3.lean ====
/-
  The fourth region's value. Each of the 10 grid points maps its 10000 rows entry by entry, x * A[column] + B[column],
  and the 10 blocks tile the [100000, 64] result.
-/
import proofs.«158705_j36850819400184_1_alg».proof.Proof.Gen.KernelIdeal.Frame
import proofs.«158705_j36850819400184_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-! ## The body's arithmetic at an index -/

/-- The offsets of a whole-buffer access of rank 2 are zero on every axis. -/
private theorem zeros2 : (![0, 0] : Fin 2 → Nat) = fun _ => 0 := funext fun a => by fin_cases a <;> rfl

/-- The offsets of a whole-buffer access of rank 1 are zero. -/
private theorem zeros1 : (![0] : Fin 1 → Nat) = fun _ => 0 := funext fun a => by fin_cases a <;> rfl

/-- The body's stored value at row `p`, column `q`: the row's entry times the scale of the column plus its shift. -/
private theorem pay_apply (x0 : Vec Ideal S10000x64 .f32) (x1 : Vec Ideal S64 .f32) (x2 : Vec Ideal S64 .f32)
    (p : Fin 10000) (q : Fin 64) :
    k3_pay1 x0 x1 x2 (ix2 p q) = x0 (ix2 p q) * x1 (ix1 q) + x2 (ix1 q) := by
  unfold k3_pay1
  rw [addf_apply, mulf_apply, shapeCast_self, broadcastTo_1b_ab_apply, broadcastTo_1b_ab_apply,
    shapeCast_a_1a_apply, shapeCast_a_1a_apply, shapeCast_self, shapeCast_self]

/-- The stored value at `(p, q)` is the affine map's entry at an array index `i`, when the three blocks read the three
    arrays where `i` says. -/
private theorem pay_affine (a : FVec Ideal S100000x64 .f32) (A B : FVec Ideal S64 .f32)
    (x0 : Vec Ideal S10000x64 .f32) (x1 : Vec Ideal S64 .f32) (x2 : Vec Ideal S64 .f32)
    (p : Fin 10000) (q : Fin 64) (i : S100000x64.Idx)
    (h0 : x0 (ix2 p q) = a i) (h1 : x1 (ix1 q) = A (ix1 (i 1))) (h2 : x2 (ix1 q) = B (ix1 (i 1))) :
    k3_pay1 x0 x1 x2 (ix2 p q) = Spec.affine a A B i := by
  rw [pay_apply, h0, h1, h2]
  rfl

/-! ## The index maps, decided over the 10 grid points -/

/-- The input rows move with the output rows, the two vectors stay whole, and point `t` holds row block `t`. -/
private theorem idx_facts : ∀ t : Fin cfg3.N,
    win3_0.index t (0 : Fin 2) = win3_3.index t (0 : Fin 2)
    ∧ win3_0.index t (1 : Fin 2) = win3_3.index t (1 : Fin 2)
    ∧ win3_1.index t (0 : Fin 1) = 0
    ∧ win3_2.index t (0 : Fin 1) = 0
    ∧ win3_3.index t (0 : Fin 2) = t.val
    ∧ win3_3.index t (1 : Fin 2) = 0 :=
  (by decide +kernel : ∀ t : Fin grid3.N, _)

/-! ## What a point writes back -/

/-- Point `t` writes back block `t` of the affine map of the arrays the region found. -/
private theorem flushed_eq (c : Dev nD) (t : Fin cfg3.N) :
    (dat3 V c).flushed 3 t
      = ((cfg3.win 3).blk t).view.read (Elt Ideal) (Spec.affine (V c main_v52_0) (V c main_v69) (V c main_v72)) := by
  show (cfg3.win 3).cut (grid3.coords t) ((dat3 V c).after 3 t) = _
  rw [after3_3]
  unfold out3_3
  rw [View.canon_unit_zero zeros2]
  simp only [View.ld_unit_zero (S := S10000x64) zeros2, View.ld_unit_zero (S := S64) zeros1]
  obtain ⟨e00, e01, e1, e2, e30, e31⟩ := idx_facts t
  funext j
  obtain ⟨p, q, rfl⟩ : ∃ (p : Fin 10000) (q : Fin 64), j = ix2 p q := ⟨j 0, j 1, eq_ix2 j⟩
  refine pay_affine (V c main_v52_0) (V c main_v69) (V c main_v72) (iblk3 V c 0 t) (iblk3 V c 1 t) (iblk3 V c 2 t) p q
    (((cfg3.win 3).blk t).view.emb (ix2 p q)) ?_ ?_ ?_
  · show V c main_v52_0 (((cfg3.win 0).blk t).view.emb (ix2 p q)) = V c main_v52_0 (((cfg3.win 3).blk t).view.emb (ix2 p q))
    refine congrArg (V c main_v52_0) (funext fun a => Fin.ext ?_)
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * q.val = win3_3.index t (1 : Fin 2) * 64 + 1 * q.val; omega
  · show V c main_v69 (((cfg3.win 1).blk t).view.emb (ix1 q)) = V c main_v69 (ix1 (((cfg3.win 3).blk t).view.emb (ix2 p q) 1))
    refine congrArg (V c main_v69) (funext fun a => Fin.ext ?_)
    match a with
    | ⟨0, _⟩ => show win3_1.index t (0 : Fin 1) * 64 + 1 * q.val = win3_3.index t (1 : Fin 2) * 64 + 1 * q.val; omega
  · show V c main_v72 (((cfg3.win 2).blk t).view.emb (ix1 q)) = V c main_v72 (ix1 (((cfg3.win 3).blk t).view.emb (ix2 p q) 1))
    refine congrArg (V c main_v72) (funext fun a => Fin.ext ?_)
    match a with
    | ⟨0, _⟩ => show win3_2.index t (0 : Fin 1) * 64 + 1 * q.val = win3_3.index t (1 : Fin 2) * 64 + 1 * q.val; omega

/-! ## The blocks tile the array -/

/-- An index of the array is in point `t`'s block iff each coordinate is in the block's range on its axis. -/
private theorem mem_blk (t : Fin cfg3.N) (i : S100000x64.Idx) :
    i ∈ ((cfg3.win 3).blk t).view.set
      ↔ ∀ a : Fin 2, win3_3.index t a * S10000x64.size a ≤ (i a).val ∧ (i a).val < win3_3.index t a * S10000x64.size a + S10000x64.size a := by
  show i ∈ ((View.whole main_v73).slice (win3_3.rect t)).set ↔ _
  rw [View.set_slice_whole, Rect.mem_set_unit]
  exact Iff.rfl

/-- Row `r` is in the block of point `r / 10000`. -/
private theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨-, -, -, -, e30, e31⟩ := idx_facts t
  have ht : t.val = (i 0).val / 10000 := rfl
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- After region 3 its output array holds the affine map of the arrays the region found. -/
theorem arrAt_affine (c : Dev nD) :
    (dat3 V c).arrAt 3 cfg3.N = Spec.affine (V c main_v52_0) (V c main_v69) (V c main_v72) :=
  (dat3 V c).arrAt_eq_of_cover 3 (Spec.affine (V c main_v52_0) (V c main_v69) (V c main_v72))
    (fun t _ => flushed_eq V c t) cover

end Cert.KernelIdeal.Reg3

end
-- ==== Proof.HostOps.lean ====
/-
  The host operations between the regions, read as functions of the buffers they start from, whatever those hold:
  the reshape of the gates; the aggregation (the operations of the three middle stretches are the specification's
  `agg`, term for term) and the reshape of the slope; the scale and shift from the two rows of column sums.
-/
import proofs.«158705_j36850819400184_1_alg».proof.Proof.Gen.KernelIdeal.Frame
import proofs.«158705_j36850819400184_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.HostOps

open Cert.KernelIdeal Cert.KernelIdeal.Gen
open Idealize.ShloMosaic Idealize.ShloMosaic.TcCoe Idealize.ShloMosaic.ValueIdx Idealize.SL.Sem
open Idealize.ShloMosaic.Pipeline (Dat Cfg Window)
variable (W : Valuation τ sig (Elt Ideal))

/-! ## The stretches' terms, piece by piece -/

section Middle

/-! The three middle stretches, one at a time, each from any valuation `V`. -/

variable (V : Valuation τ sig (Elt Ideal))

/-- After the first middle stretch: the source nodes, … -/
private theorem mid_v6 : (StableHlo.after hostOps2 V (Proc.devRef .tc main_v6) : IVec S1700000 32)
    = Spec.srcIdx (V (Proc.devRef .tc main_arg1)) := by
  after_results_simp
  rfl
/-- … the target nodes, … -/
private theorem mid_v9 : (StableHlo.after hostOps2 V (Proc.devRef .tc main_v9) : IVec S1700000 32)
    = Spec.dstIdx (V (Proc.devRef .tc main_arg1)) := by
  after_results_simp
  rfl
/-- … every edge's weight, … -/
private theorem mid_v11 : (StableHlo.after hostOps2 V (Proc.devRef .tc main_v11) : FVec Ideal S1700000 .f32)
    = Spec.ewFull (F := Ideal) (V (Proc.devRef .tc main_v1)) := by
  after_results_simp
  rfl
/-- … where the weighted degree is positive, … -/
private theorem mid_v16 : (StableHlo.after hostOps2 V (Proc.devRef .tc main_v16) : IVec S100000 1)
    = cmpf .ogt (Spec.deg (F := Ideal) (V (Proc.devRef .tc main_v1)) (V (Proc.devRef .tc main_arg1)))
        (broadcastInDim S100000 ![] bcast_S_S100000 (constant S_ .f32 0x00000000#32)) := by
  after_results_simp
  rfl
/-- … its inverse square root, … -/
private theorem mid_v17 : (StableHlo.after hostOps2 V (Proc.devRef .tc main_v17) : FVec Ideal S100000 .f32)
    = Host.rsqrt (Spec.deg (F := Ideal) (V (Proc.devRef .tc main_v1)) (V (Proc.devRef .tc main_arg1))) := by
  after_results_simp
  rfl
/-- … the zero it is replaced by elsewhere, … -/
private theorem mid_cst2 : (StableHlo.after hostOps2 V (Proc.devRef .tc main_cst_2) : FVec Ideal S_ .f32)
    = constant (F := Ideal) S_ .f32 0x00000000#32 := by
  after_results_simp
/-- … and the transformed features and the bias as they were. -/
private theorem mid_v2 : StableHlo.after hostOps2 V (Proc.devRef .tc main_v2) = V (Proc.devRef .tc main_v2) := by
  after_results_simp
private theorem mid_arg4 : StableHlo.after hostOps2 V (Proc.devRef .tc main_arg4) = V (Proc.devRef .tc main_arg4) := by
  after_results_simp

/-- The outlined select writes the inverse square root of the degree where it is positive, zero elsewhere, … -/
private theorem sel_v18 (ew1 : FVec Ideal S1600000 .f32) (ei : IVec S2x1600000 32)
    (h16 : (V (Proc.devRef .tc main_v16) : IVec S100000 1)
      = cmpf .ogt (Spec.deg (F := Ideal) ew1 ei) (broadcastInDim S100000 ![] bcast_S_S100000 (constant S_ .f32 0x00000000#32)))
    (h17 : (V (Proc.devRef .tc main_v17) : FVec Ideal S100000 .f32) = Host.rsqrt (Spec.deg (F := Ideal) ew1 ei))
    (hc : (V (Proc.devRef .tc main_cst_2) : FVec Ideal S_ .f32) = constant (F := Ideal) S_ .f32 0x00000000#32) :
    (StableHlo.after hostOps2_1 V (Proc.devRef .tc main_v18) : FVec Ideal S100000 .f32) = Spec.dinv (F := Ideal) ew1 ei := by
  after_results_simp
  show select (V (Proc.devRef .tc main_v16) : IVec S100000 1) (V (Proc.devRef .tc main_v17) : FVec Ideal S100000 .f32)
      (broadcastInDim S100000 ![] bcast_S_S100000 (V (Proc.devRef .tc main_cst_2) : FVec Ideal S_ .f32)) = _
  rw [h16, h17, hc]
  rfl
/-- … and leaves the other buffers the last stretch reads. -/
private theorem sel_v6 : StableHlo.after hostOps2_1 V (Proc.devRef .tc main_v6) = V (Proc.devRef .tc main_v6) := by
  after_results_simp
private theorem sel_v9 : StableHlo.after hostOps2_1 V (Proc.devRef .tc main_v9) = V (Proc.devRef .tc main_v9) := by
  after_results_simp
private theorem sel_v11 : StableHlo.after hostOps2_1 V (Proc.devRef .tc main_v11) = V (Proc.devRef .tc main_v11) := by
  after_results_simp
private theorem sel_v2 : StableHlo.after hostOps2_1 V (Proc.devRef .tc main_v2) = V (Proc.devRef .tc main_v2) := by
  after_results_simp
private theorem sel_arg4 : StableHlo.after hostOps2_1 V (Proc.devRef .tc main_arg4) = V (Proc.devRef .tc main_arg4) := by
  after_results_simp

/-- The last middle stretch is the aggregation of what its six input buffers hold. -/
private theorem last_v50 (ew1 : FVec Ideal S1600000 .f32) (xt : FVec Ideal S100000x64 .f32) (ei : IVec S2x1600000 32) (bias : FVec Ideal S64 .f32)
    (h6 : (V (Proc.devRef .tc main_v6) : IVec S1700000 32) = Spec.srcIdx ei)
    (h9 : (V (Proc.devRef .tc main_v9) : IVec S1700000 32) = Spec.dstIdx ei)
    (h11 : (V (Proc.devRef .tc main_v11) : FVec Ideal S1700000 .f32) = Spec.ewFull (F := Ideal) ew1)
    (h18 : (V (Proc.devRef .tc main_v18) : FVec Ideal S100000 .f32) = Spec.dinv (F := Ideal) ew1 ei)
    (h2 : (V (Proc.devRef .tc main_v2) : FVec Ideal S100000x64 .f32) = xt)
    (h4 : (V (Proc.devRef .tc main_arg4) : FVec Ideal S64 .f32) = bias) :
    (StableHlo.after hostOps2_2 V (Proc.devRef .tc main_v50) : FVec Ideal S100000x64 .f32) = Spec.agg (F := Ideal) ew1 xt ei bias := by
  after_results_simp
  rw [h6, h9, h11, h18, h2, h4]
  rfl

end Middle

/-- A [1, 64] row reshaped flat reads, at column `j`, the row's entry `(0, j)`. -/
private theorem row_reshape (r : FVec Ideal S1x64 .f32) (j : Fin 64) :
    shapeCast S64 r shapeCasts_S1x64_S64 (ix1 j) = r (ix2 0 j) :=
  shapeCast_apply r shapeCasts_S1x64_S64 (ix1 j) (ix2 0 j) (by
    rw [Shape.rowMajor_val_two, Shape.rowMajor_val_one]; show 0 * 64 + j.val = j.val; omega)

/-- A scalar constant broadcast to [64] reads the constant everywhere. -/
private theorem splat (b : BitVec 32) (j : Fin 64) :
    broadcastInDim S64 ![] bcast_S_S64 (constant (F := Ideal) S_ .f32 b) (ix1 j) = Ideal.ofBits .f32 b :=
  broadcastInDim_apply _ _ _ _ ix0 (fun a => a.elim0)

/-- The host's column mean, column by column: the row's entry over the number of rows. -/
private theorem mean_apply (r : FVec Ideal S1x64 .f32) (j : Fin 64) :
    Host.divf (shapeCast S64 r shapeCasts_S1x64_S64) (broadcastInDim S64 ![] bcast_S_S64 (constant S_ .f32 0x47C35000#32)) (ix1 j)
      = Ideal.div (r (ix2 0 j)) Spec.cN := by
  show Ideal.div (shapeCast S64 r shapeCasts_S1x64_S64 (ix1 j))
      (broadcastInDim S64 ![] bcast_S_S64 (constant (F := Ideal) S_ .f32 0x47C35000#32) (ix1 j)) = _
  rw [row_reshape, splat]

/-- The host's scale array, as a term of the two rows of sums, the weight and the learnt mean scale, is the kernel's
    scale column by column. -/
private theorem scale_term (s1 s2 : FVec Ideal S1x64 .f32) (w s : FVec Ideal S64 .f32) :
    mulf w (Host.rsqrt (addf
        (subf (Host.divf (shapeCast S64 s2 shapeCasts_S1x64_S64) (broadcastInDim S64 ![] bcast_S_S64 (constant S_ .f32 0x47C35000#32)))
          (mulf
            (mulf (Host.divf (shapeCast S64 s1 shapeCasts_S1x64_S64) (broadcastInDim S64 ![] bcast_S_S64 (constant S_ .f32 0x47C35000#32)))
              (Host.divf (shapeCast S64 s1 shapeCasts_S1x64_S64) (broadcastInDim S64 ![] bcast_S_S64 (constant S_ .f32 0x47C35000#32))))
            (subf (mulf (broadcastInDim S64 ![] bcast_S_S64 (constant S_ .f32 0x40000000#32)) s) (mulf s s))))
        (broadcastInDim S64 ![] bcast_S_S64 (constant S_ .f32 0x3727C5AC#32))))
      = fun i => Spec.kA (Spec.rowOf s1) (Spec.rowOf s2) w s (i 0) := by
  funext i
  obtain ⟨j, rfl⟩ : ∃ j : Fin 64, i = ix1 j := ⟨i 0, eq_ix1 i⟩
  show w (ix1 j) * Ideal.rsqrt
      ((Host.divf (shapeCast S64 s2 shapeCasts_S1x64_S64) (broadcastInDim S64 ![] bcast_S_S64 (constant S_ .f32 0x47C35000#32)) (ix1 j)
          - (Host.divf (shapeCast S64 s1 shapeCasts_S1x64_S64) (broadcastInDim S64 ![] bcast_S_S64 (constant S_ .f32 0x47C35000#32)) (ix1 j)
              * Host.divf (shapeCast S64 s1 shapeCasts_S1x64_S64) (broadcastInDim S64 ![] bcast_S_S64 (constant S_ .f32 0x47C35000#32)) (ix1 j))
            * (broadcastInDim S64 ![] bcast_S_S64 (constant (F := Ideal) S_ .f32 0x40000000#32) (ix1 j) * s (ix1 j) - s (ix1 j) * s (ix1 j)))
        + broadcastInDim S64 ![] bcast_S_S64 (constant (F := Ideal) S_ .f32 0x3727C5AC#32) (ix1 j)) = _
  rw [mean_apply, mean_apply, splat, splat]
  rfl

/-- The host's shift array from its scale array: the bias less scale times mean scale times mean, column by column. -/
private theorem shift_term (s1 s2 : FVec Ideal S1x64 .f32) (A w b s : FVec Ideal S64 .f32)
    (hA : A = fun i => Spec.kA (Spec.rowOf s1) (Spec.rowOf s2) w s (i 0)) :
    subf b (mulf (mulf A s)
        (Host.divf (shapeCast S64 s1 shapeCasts_S1x64_S64) (broadcastInDim S64 ![] bcast_S_S64 (constant S_ .f32 0x47C35000#32))))
      = fun i => Spec.kB (Spec.rowOf s1) (Spec.rowOf s2) w b s (i 0) := by
  subst hA
  funext i
  obtain ⟨j, rfl⟩ : ∃ j : Fin 64, i = ix1 j := ⟨i 0, eq_ix1 i⟩
  show b (ix1 j) - (Spec.kA (Spec.rowOf s1) (Spec.rowOf s2) w s j * s (ix1 j))
      * Host.divf (shapeCast S64 s1 shapeCasts_S1x64_S64) (broadcastInDim S64 ![] bcast_S_S64 (constant S_ .f32 0x47C35000#32)) (ix1 j) = _
  rw [mean_apply]
  rfl

/-! ## The interfaces -/

/-- After the first stretch the flat gate array is the reshape of the column the first region left. -/
theorem host1 : (StableHlo.after hostOps1 W (Proc.devRef .tc main_v1) : FVec Ideal S1600000 .f32)
    = shapeCast S1600000 (W (Proc.devRef .tc main_v0) : FVec Ideal S1600000x1 .f32) shapeCasts_S1600000x1_S1600000 := by
  after_results
  rfl

/-- After the three middle stretches the pre-rectifier array is the aggregation of the buffers they start from. -/
theorem host2_v50 : (StableHlo.after hostOps2_2 (StableHlo.after hostOps2_1 (StableHlo.after hostOps2 W)) (Proc.devRef .tc main_v50) : FVec Ideal S100000x64 .f32)
    = Spec.agg (F := Ideal) (W (Proc.devRef .tc main_v1)) (W (Proc.devRef .tc main_v2)) (W (Proc.devRef .tc main_arg1)) (W (Proc.devRef .tc main_arg4)) :=
  last_v50 _ _ _ _ _
    ((sel_v6 _).trans (mid_v6 W))
    ((sel_v9 _).trans (mid_v9 W))
    ((sel_v11 _).trans (mid_v11 W))
    (sel_v18 _ _ _ (mid_v16 W) (mid_v17 W) (mid_cst2 W))
    ((sel_v2 _).trans (mid_v2 W))
    ((sel_arg4 _).trans (mid_arg4 W))

/-- … and the [1, 1] slope array is the reshape of the scalar argument. -/
theorem host2_v51 : (StableHlo.after hostOps2_2 (StableHlo.after hostOps2_1 (StableHlo.after hostOps2 W)) (Proc.devRef .tc main_v51) : FVec Ideal S1x1 .f32)
    = shapeCast S1x1 (W (Proc.devRef .tc main_arg9) : FVec Ideal S_ .f32) shapeCasts_S_S1x1 := by
  after_results
  rfl

/-- The one entry of the reshaped scalar is the scalar. -/
theorem slope_reshape (a : FVec Ideal S_ .f32) : Spec.slope (shapeCast S1x1 a shapeCasts_S_S1x1) = a := by
  funext i
  rw [eq_ix0 i]
  unfold Spec.slope
  exact shapeCast_apply a shapeCasts_S_S1x1 (ix2 0 0) ix0 (by decide)

/-- After the last stretch the scale array is the kernel's scale of the two rows of column sums. -/
theorem host3_v69 : (StableHlo.after hostOps3 W (Proc.devRef .tc main_v69) : FVec Ideal S64 .f32)
    = fun i => Spec.kA (Spec.rowOf (W (Proc.devRef .tc main_v52_1))) (Spec.rowOf (W (Proc.devRef .tc main_v52_2)))
        (W (Proc.devRef .tc main_arg10)) (W (Proc.devRef .tc main_arg12)) (i 0) := by
  after_results_simp
  exact scale_term _ _ _ _

/-- … and the shift array the kernel's shift. -/
theorem host3_v72 : (StableHlo.after hostOps3 W (Proc.devRef .tc main_v72) : FVec Ideal S64 .f32)
    = fun i => Spec.kB (Spec.rowOf (W (Proc.devRef .tc main_v52_1))) (Spec.rowOf (W (Proc.devRef .tc main_v52_2)))
        (W (Proc.devRef .tc main_arg10)) (W (Proc.devRef .tc main_arg11)) (W (Proc.devRef .tc main_arg12)) (i 0) := by
  after_results_simp
  exact shift_term _ _ _ _ _ _ (scale_term _ _ _ _)

/-- The last stretch does not write the rectified array. -/
theorem host3_keep : StableHlo.after hostOps3 W (Proc.devRef .tc main_v52_0) = W (Proc.devRef .tc main_v52_0) :=
  StableHlo.after_of_forall_not_mem (b := Proc.devRef .tc main_v52_0) _ _ (List.forall_iff_forall_mem.mp (by
    simp only [hostOps3, List.Forall, StableHlo.nullary_writes, StableHlo.unary_writes, StableHlo.binary_writes,
      StableHlo.reshape_writes, Finset.mem_singleton]
    repeat' apply And.intro
    all_goals exact StableHlo.devRef_ne_of_ne (by decide)))

end Cert.KernelIdeal.HostOps

end
-- ==== Proof.Walk.lean ====
/-
  Buffers nobody writes, read back through the boundaries of the run: an argument holds its launch contents at every
  boundary, and a result of an earlier stretch is still there when a later stretch reads it.
-/
import proofs.«158705_j36850819400184_1_alg».proof.Proof.Gen.KernelIdeal.Frame
import proofs.«158705_j36850819400184_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Walk

open Cert.KernelIdeal Cert.KernelIdeal.Gen
open Idealize.ShloMosaic Idealize.ShloMosaic.TcCoe Idealize.ShloMosaic.ValueIdx Idealize.SL.Sem
open Idealize.ShloMosaic.Pipeline (Dat Cfg Window)
variable (m : (ℓ : Loc nD τ sig) → Buf (Elt Ideal) ℓ) (ρ : Dev nD → PrngReg)

/-- A buffer that none of a stretch's host operations writes holds after the stretch what it held before it. -/
local macro "untouched " ops:ident " at " b:term : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- What region 1 finds in the feature and weight arguments is what was launched. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := untouched hostOps1 at main_arg0
    _ = W0 m ρ c (Proc.devRef .tc main_arg0) := W1_of_ne m ρ c main_arg0 (by decide)
    _ = m ((c : Thread nD τ).loc main_arg0) := rfl
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := untouched hostOps1 at main_arg3
    _ = W0 m ρ c (Proc.devRef .tc main_arg3) := W1_of_ne m ρ c main_arg3 (by decide)
    _ = m ((c : Thread nD τ).loc main_arg3) := rfl

/-- What the middle stretches find: the flat gates from the first stretch, and three arguments as launched. -/
theorem W3_v1 (c : Dev nD) : W3 m ρ c (Proc.devRef .tc main_v1) = W2 m ρ c (Proc.devRef .tc main_v1) :=
  W3_of_ne m ρ c main_v1 (by decide)
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := untouched hostOps1 at main_arg1
    _ = W0 m ρ c (Proc.devRef .tc main_arg1) := W1_of_ne m ρ c main_arg1 (by decide)
    _ = m ((c : Thread nD τ).loc main_arg1) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := untouched hostOps1 at main_arg4
    _ = W0 m ρ c (Proc.devRef .tc main_arg4) := W1_of_ne m ρ c main_arg4 (by decide)
    _ = m ((c : Thread nD τ).loc main_arg4) := rfl
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := untouched hostOps1 at main_arg9
    _ = W0 m ρ c (Proc.devRef .tc main_arg9) := W1_of_ne m ρ c main_arg9 (by decide)
    _ = m ((c : Thread nD τ).loc main_arg9) := rfl

/-- What the last stretch finds in the three normalisation arguments is what was launched. -/
theorem W7_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := untouched hostOps2_2 at main_arg10
    _ = W4 m ρ c (Proc.devRef .tc main_arg10) := untouched hostOps2_1 at main_arg10
    _ = W3 m ρ c (Proc.devRef .tc main_arg10) := untouched hostOps2 at main_arg10
    _ = W2 m ρ c (Proc.devRef .tc main_arg10) := W3_of_ne m ρ c main_arg10 (by decide)
    _ = W1 m ρ c (Proc.devRef .tc main_arg10) := untouched hostOps1 at main_arg10
    _ = W0 m ρ c (Proc.devRef .tc main_arg10) := W1_of_ne m ρ c main_arg10 (by decide)
    _ = m ((c : Thread nD τ).loc main_arg10) := rfl
theorem W7_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_of_ne m ρ c main_arg11 (by decide)
    _ = W5 m ρ c (Proc.devRef .tc main_arg11) := untouched hostOps2_2 at main_arg11
    _ = W4 m ρ c (Proc.devRef .tc main_arg11) := untouched hostOps2_1 at main_arg11
    _ = W3 m ρ c (Proc.devRef .tc main_arg11) := untouched hostOps2 at main_arg11
    _ = W2 m ρ c (Proc.devRef .tc main_arg11) := W3_of_ne m ρ c main_arg11 (by decide)
    _ = W1 m ρ c (Proc.devRef .tc main_arg11) := untouched hostOps1 at main_arg11
    _ = W0 m ρ c (Proc.devRef .tc main_arg11) := W1_of_ne m ρ c main_arg11 (by decide)
    _ = m ((c : Thread nD τ).loc main_arg11) := rfl
theorem W7_arg12 (c : Dev nD) : W7 m ρ c (Proc.devRef .tc main_arg12) = m ((c : Thread nD τ).loc main_arg12) :=
  calc W7 m ρ c (Proc.devRef .tc main_arg12)
    _ = W6 m ρ c (Proc.devRef .tc main_arg12) := W7_of_ne m ρ c main_arg12 (by decide)
    _ = W5 m ρ c (Proc.devRef .tc main_arg12) := untouched hostOps2_2 at main_arg12
    _ = W4 m ρ c (Proc.devRef .tc main_arg12) := untouched hostOps2_1 at main_arg12
    _ = W3 m ρ c (Proc.devRef .tc main_arg12) := untouched hostOps2 at main_arg12
    _ = W2 m ρ c (Proc.devRef .tc main_arg12) := W3_of_ne m ρ c main_arg12 (by decide)
    _ = W1 m ρ c (Proc.devRef .tc main_arg12) := untouched hostOps1 at main_arg12
    _ = W0 m ρ c (Proc.devRef .tc main_arg12) := W1_of_ne m ρ c main_arg12 (by decide)
    _ = m ((c : Thread nD τ).loc main_arg12) := rfl

end Cert.KernelIdeal.Walk

end
-- ==== Proof.KVal.lean ====
/-
  The kernel's result array as one function of its arguments. The run's boundaries are walked in order: the gates the
  first region leaves, their reshape, the transformed features of the second region, the aggregation and the reshaped
  slope of the middle stretches, the rectified array and its two rows of column sums from the third region, the scale
  and shift of the last stretch, and the affine map of the fourth region: the specification's `kOut` of the
  activations.
-/
import proofs.«158705_j36850819400184_1_alg».proof.Proof.Gen.KernelIdeal.Frame
import proofs.«158705_j36850819400184_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«158705_j36850819400184_1_alg».proof.Proof.Reg0
import proofs.«158705_j36850819400184_1_alg».proof.Proof.Reg1
import proofs.«158705_j36850819400184_1_alg».proof.Proof.Reg2
import proofs.«158705_j36850819400184_1_alg».proof.Proof.Reg3
import proofs.«158705_j36850819400184_1_alg».proof.Proof.HostOps
import proofs.«158705_j36850819400184_1_alg».proof.Proof.Walk
set_option maxRecDepth 16384

noncomputable section

open scoped BigOperators

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! The thirteen arguments as launched, at their literal types. -/
abbrev a0 (c : Dev nD) : FVec Ideal S100000x128 .f32 := m ((c : Thread nD τ).loc main_arg0)
abbrev a1 (c : Dev nD) : IVec S2x1600000 32 := m ((c : Thread nD τ).loc main_arg1)
abbrev a2 (c : Dev nD) : FVec Ideal S1600000x16 .f32 := m ((c : Thread nD τ).loc main_arg2)
abbrev a3 (c : Dev nD) : FVec Ideal S64x128 .f32 := m ((c : Thread nD τ).loc main_arg3)
abbrev a4 (c : Dev nD) : FVec Ideal S64 .f32 := m ((c : Thread nD τ).loc main_arg4)
abbrev a5 (c : Dev nD) : FVec Ideal S32x16 .f32 := m ((c : Thread nD τ).loc main_arg5)
abbrev a6 (c : Dev nD) : FVec Ideal S32 .f32 := m ((c : Thread nD τ).loc main_arg6)
abbrev a7 (c : Dev nD) : FVec Ideal S1x32 .f32 := m ((c : Thread nD τ).loc main_arg7)
abbrev a8 (c : Dev nD) : FVec Ideal S1 .f32 := m ((c : Thread nD τ).loc main_arg8)
abbrev a9 (c : Dev nD) : FVec Ideal S_ .f32 := m ((c : Thread nD τ).loc main_arg9)
abbrev a10 (c : Dev nD) : FVec Ideal S64 .f32 := m ((c : Thread nD τ).loc main_arg10)
abbrev a11 (c : Dev nD) : FVec Ideal S64 .f32 := m ((c : Thread nD τ).loc main_arg11)
abbrev a12 (c : Dev nD) : FVec Ideal S64 .f32 := m ((c : Thread nD τ).loc main_arg12)

/-- The activations of the launched arguments. -/
abbrev actOf (c : Dev nD) : FVec Ideal S100000x64 .f32 := Spec.act (a0 m c) (a1 m c) (a2 m c) (a3 m c) (a4 m c) (a5 m c) (a6 m c) (a7 m c) (a8 m c) (a9 m c)

/-- Region 0 leaves the gates. -/
theorem v0_eq (c : Dev nD) : W1 m ρ c (Proc.devRef .tc main_v0) = Spec.gate (a2 m c) (a5 m c) (a6 m c) (a7 m c) (a8 m c) :=
  (W1_arr m ρ c 5).trans (Reg0.arrAt_gate (V0 m ρ) c)

/-- The first stretch reshapes them. -/
theorem v1_eq (c : Dev nD) : W2 m ρ c (Proc.devRef .tc main_v1) = Spec.gate1 (a2 m c) (a5 m c) (a6 m c) (a7 m c) (a8 m c) := by
  refine (HostOps.host1 (W1 m ρ c)).trans ?_
  rw [v0_eq]; rfl

/-- Region 1 leaves the transformed features. -/
theorem v2_eq (c : Dev nD) : W3 m ρ c (Proc.devRef .tc main_v2) = Spec.xt (a0 m c) (a3 m c) := by
  refine (W3_arr m ρ c 2).trans ((Reg1.arrAt_xt (V2 m ρ) c).trans ?_)
  show Spec.xt (W2 m ρ c (Proc.devRef .tc main_arg0)) (W2 m ρ c (Proc.devRef .tc main_arg3)) = _
  rw [Walk.W2_arg0, Walk.W2_arg3]

/-- The middle stretches leave the aggregated features … -/
theorem v50_eq (c : Dev nD) : W6 m ρ c (Proc.devRef .tc main_v50) = Spec.feat (a0 m c) (a1 m c) (a2 m c) (a3 m c) (a4 m c) (a5 m c) (a6 m c) (a7 m c) (a8 m c) := by
  refine (HostOps.host2_v50 (W3 m ρ c)).trans ?_
  rw [Walk.W3_v1, v1_eq, v2_eq, Walk.W3_arg1, Walk.W3_arg4]; rfl

/-- … and the slope as a [1, 1] array. -/
theorem v51_eq (c : Dev nD) : W6 m ρ c (Proc.devRef .tc main_v51) = shapeCast S1x1 (a9 m c) shapeCasts_S_S1x1 := by
  refine (HostOps.host2_v51 (W3 m ρ c)).trans ?_
  rw [Walk.W3_arg9]

/-- Region 2 leaves the activations … -/
theorem v52_0_eq (c : Dev nD) : W7 m ρ c (Proc.devRef .tc main_v52_0) = actOf m c := by
  refine (W7_arr m ρ c 2).trans ((Reg2.arrAt_prelu (V6 m ρ) c).trans ?_)
  show Spec.prelu (Spec.slope (W6 m ρ c (Proc.devRef .tc main_v51))) (W6 m ρ c (Proc.devRef .tc main_v50)) = _
  rw [v51_eq, v50_eq, HostOps.slope_reshape]; rfl

/-- … their column sums … -/
theorem v52_1_eq (c : Dev nD) : W7 m ρ c (Proc.devRef .tc main_v52_1) = fun i : S1x64.Idx => Spec.colSum (actOf m c) (i 1) := by
  refine (W7_arr m ρ c 3).trans ((Reg2.arrAt_sum (V6 m ρ) c).trans ?_)
  show (fun i : S1x64.Idx => Spec.colSum (Spec.prelu (Spec.slope (W6 m ρ c (Proc.devRef .tc main_v51))) (W6 m ρ c (Proc.devRef .tc main_v50))) (i 1)) = _
  rw [v51_eq, v50_eq, HostOps.slope_reshape]; rfl

/-- … and the column sums of their squares. -/
theorem v52_2_eq (c : Dev nD) : W7 m ρ c (Proc.devRef .tc main_v52_2) = fun i : S1x64.Idx => Spec.colSumSq (actOf m c) (i 1) := by
  refine (W7_arr m ρ c 4).trans ((Reg2.arrAt_sumsq (V6 m ρ) c).trans ?_)
  show (fun i : S1x64.Idx => Spec.colSumSq (Spec.prelu (Spec.slope (W6 m ρ c (Proc.devRef .tc main_v51))) (W6 m ρ c (Proc.devRef .tc main_v50))) (i 1)) = _
  rw [v51_eq, v50_eq, HostOps.slope_reshape]; rfl

/-- The last stretch leaves the scale … -/
theorem v69_eq (c : Dev nD) : W8 m ρ c (Proc.devRef .tc main_v69)
    = fun i : S64.Idx => Spec.kA (Spec.colSum (actOf m c)) (Spec.colSumSq (actOf m c)) (a10 m c) (a12 m c) (i 0) := by
  refine (HostOps.host3_v69 (W7 m ρ c)).trans ?_
  rw [v52_1_eq, v52_2_eq, Walk.W7_arg10, Walk.W7_arg12]; rfl

/-- … the shift … -/
theorem v72_eq (c : Dev nD) : W8 m ρ c (Proc.devRef .tc main_v72)
    = fun i : S64.Idx => Spec.kB (Spec.colSum (actOf m c)) (Spec.colSumSq (actOf m c)) (a10 m c) (a11 m c) (a12 m c) (i 0) := by
  refine (HostOps.host3_v72 (W7 m ρ c)).trans ?_
  rw [v52_1_eq, v52_2_eq, Walk.W7_arg10, Walk.W7_arg11, Walk.W7_arg12]; rfl

/-- … and the activations untouched. -/
theorem v52_0_at8 (c : Dev nD) : W8 m ρ c (Proc.devRef .tc main_v52_0) = actOf m c :=
  (HostOps.host3_keep (W7 m ρ c)).trans (v52_0_eq m ρ c)

/-- Region 3 leaves the kernel's normalisation of the activations: the result array after the run. -/
theorem result (c : Dev nD) : W9 m ρ c (Proc.devRef .tc main_v73) = Spec.kOut (actOf m c) (a10 m c) (a11 m c) (a12 m c) := by
  refine (W9_arr m ρ c 3).trans ((Reg3.arrAt_affine (V8 m ρ) c).trans ?_)
  show Spec.affine (W8 m ρ c (Proc.devRef .tc main_v52_0)) (W8 m ρ c (Proc.devRef .tc main_v69)) (W8 m ρ c (Proc.devRef .tc main_v72)) = _
  rw [v52_0_at8, v69_eq, v72_eq]; rfl

end Cert.KernelIdeal.KVal

end
-- ==== Proof.RefHead.lean ====
/-
  The reference up to the rectifier is the specification's activation. Its edge network, read entry by entry, is the
  gate (the logistic function spelt 1 / (1 + exp (-z))); its matrix product is the node transform; its aggregation is
  the shared chain of host operations, term for term; its select on `x >= 0` is the rectifier.
-/
import proofs.«158705_j36850819400184_1_alg».proof.Proof.Gen.ReferenceIdeal.Read
import proofs.«158705_j36850819400184_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.RefHead

open Cert.ReferenceIdeal Cert.ReferenceIdeal.Gen Cert.ReferenceIdeal.Read
open Idealize.ShloMosaic Idealize.ShloMosaic.TcCoe Idealize.ShloMosaic.ValueIdx Idealize.SL.Sem

/-! ## The index maps of the two matrix products and the broadcasts, at coordinates -/

private theorem lidx7 (e : Fin 1600000) (z : Fin 1) (k : Fin 32) : lidx_main_v7 (ix2 e z) k = ix2 e k :=
  funext fun a => Fin.ext (by match a with | ⟨0, _⟩ => rfl | ⟨1, _⟩ => rfl)
private theorem ridx7 (e : Fin 1600000) (z : Fin 1) (k : Fin 32) : ridx_main_v7 (ix2 e z) k = ix2 k z :=
  funext fun a => Fin.ext (by match a with | ⟨0, _⟩ => rfl | ⟨1, _⟩ => rfl)
private theorem idx6 (k : Fin 32) (z : Fin 1) : idx_main_v6 (ix2 k z) = ix2 z k :=
  funext fun a => Fin.ext (by match a with | ⟨0, _⟩ => rfl | ⟨1, _⟩ => rfl)
private theorem lidx1 (e : Fin 1600000) (k : Fin 32) (j : Fin 16) : lidx_main_v1 (ix2 e k) j = ix2 e j :=
  funext fun a => Fin.ext (by match a with | ⟨0, _⟩ => rfl | ⟨1, _⟩ => rfl)
private theorem ridx1 (e : Fin 1600000) (k : Fin 32) (j : Fin 16) : ridx_main_v1 (ix2 e k) j = ix2 j k :=
  funext fun a => Fin.ext (by match a with | ⟨0, _⟩ => rfl | ⟨1, _⟩ => rfl)
private theorem idx0 (j : Fin 16) (k : Fin 32) : idx_main_v0 (ix2 j k) = ix2 k j :=
  funext fun a => Fin.ext (by match a with | ⟨0, _⟩ => rfl | ⟨1, _⟩ => rfl)
private theorem idx3 (e : Fin 1600000) (k : Fin 32) : idx_main_v2 (idx_main_v3 (ix2 e k)) = ix1 k :=
  funext fun a => Fin.ext (by match a with | ⟨0, _⟩ => rfl)
private theorem idx9 (e : Fin 1600000) (z : Fin 1) : idx_main_v8 (idx_main_v9 (ix2 e z)) = ix1 0 :=
  funext fun a => Fin.ext (by match a with | ⟨0, _⟩ => rfl)

/-- The edge network's last stage is the gate, edge by edge. -/
private theorem gate_eq (x2 : (⟨S1600000x16, .f32⟩ : BufTy).Contents (Elt Ideal)) (x5 : (⟨S32x16, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) :
    val_main_v16 (F := Ideal) x2 x5 x6 x7 x8 = Spec.gate x2 x5 x6 x7 x8 := by
  funext i
  obtain ⟨e, z, rfl⟩ : ∃ (e : Fin 1600000) (z : Fin 1), i = ix2 e z := ⟨i 0, i 1, eq_ix2 i⟩
  obtain rfl : z = 0 := Subsingleton.elim _ _
  simp only [val_main_v16_apply, val_main_v15_apply, val_main_cst_0_apply, val_main_v14_apply, val_main_v13_apply, val_main_cst_apply,
    val_main_v12_apply, val_main_v11_apply, val_main_v10_apply, val_main_v9_apply, val_main_v8_apply, val_main_v7_apply,
    val_main_v6_apply, val_main_v5_apply, val_main_call0_v0_apply, val_main_call0_cst_apply, val_main_v4_apply, val_main_v3_apply,
    val_main_v2_apply, val_main_v1_apply, val_main_v0_apply,
    lidx7, ridx7, idx6, lidx1, ridx1, idx0, idx3, idx9,
    Ideal.hostDivf_def, Ideal.addf_def, Ideal.hostUnary_exp_def, Ideal.hostNegf_def, Ideal.negf_def, Ideal.maximumf_def, Ideal.ofBits_def,
    Ideal.ofBits_one_f32, Ideal.ofBits_zero_f32]
  rfl

private theorem lidx51 (n : Fin 100000) (o : Fin 64) (k : Fin 128) : lidx_main_v51 (ix2 n o) k = ix2 n k :=
  funext fun a => Fin.ext (by match a with | ⟨0, _⟩ => rfl | ⟨1, _⟩ => rfl)
private theorem ridx51 (n : Fin 100000) (o : Fin 64) (k : Fin 128) : ridx_main_v51 (ix2 n o) k = ix2 k o :=
  funext fun a => Fin.ext (by match a with | ⟨0, _⟩ => rfl | ⟨1, _⟩ => rfl)
private theorem idx50 (k : Fin 128) (o : Fin 64) : idx_main_v50 (ix2 k o) = ix2 o k :=
  funext fun a => Fin.ext (by match a with | ⟨0, _⟩ => rfl | ⟨1, _⟩ => rfl)

/-- The matrix product of the node features is the node transform, entry by entry. -/
private theorem xt_eq (x0 : (⟨S100000x128, .f32⟩ : BufTy).Contents (Elt Ideal)) (x3 : (⟨S64x128, .f32⟩ : BufTy).Contents (Elt Ideal)) :
    val_main_v51 (F := Ideal) x0 x3 = Spec.xt x0 x3 := by
  funext i
  obtain ⟨n, o, rfl⟩ : ∃ (n : Fin 100000) (o : Fin 64), i = ix2 n o := ⟨i 0, i 1, eq_ix2 i⟩
  simp only [val_main_v51_apply, val_main_v50_apply, lidx51, ridx51, idx50]
  rfl

/-- The reference's aggregation is the shared chain of host operations on its gates and its transformed features. -/
private theorem agg_eq (x0 : (⟨S100000x128, .f32⟩ : BufTy).Contents (Elt Ideal)) (x1 : (⟨S2x1600000, .i32⟩ : BufTy).Contents (Elt Ideal)) (x2 : (⟨S1600000x16, .f32⟩ : BufTy).Contents (Elt Ideal)) (x3 : (⟨S64x128, .f32⟩ : BufTy).Contents (Elt Ideal)) (x4 : (⟨S64, .f32⟩ : BufTy).Contents (Elt Ideal)) (x5 : (⟨S32x16, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) :
    val_main_v67 (F := Ideal) x0 x1 x2 x3 x4 x5 x6 x7 x8
      = Spec.agg (F := Ideal) (val_main_v17 (F := Ideal) x2 x5 x6 x7 x8) (val_main_v51 (F := Ideal) x0 x3) x1 x4 := rfl

/-- The select on `x >= 0` between an entry and the slope times it is the leaky rectifier. -/
private theorem prelu_eq (x0 : (⟨S100000x128, .f32⟩ : BufTy).Contents (Elt Ideal)) (x1 : (⟨S2x1600000, .i32⟩ : BufTy).Contents (Elt Ideal)) (x2 : (⟨S1600000x16, .f32⟩ : BufTy).Contents (Elt Ideal)) (x3 : (⟨S64x128, .f32⟩ : BufTy).Contents (Elt Ideal)) (x4 : (⟨S64, .f32⟩ : BufTy).Contents (Elt Ideal)) (x5 : (⟨S32x16, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) (x9 : (⟨S_, .f32⟩ : BufTy).Contents (Elt Ideal)) :
    val_main_v72 (F := Ideal) x0 x1 x2 x3 x4 x5 x6 x7 x8 x9
      = Spec.prelu x9 (val_main_v67 (F := Ideal) x0 x1 x2 x3 x4 x5 x6 x7 x8) := by
  funext i
  rw [val_main_v72_apply, val_main_v69_apply, val_main_v71_apply, val_main_v70_apply, val_main_v68_apply, val_main_cst_11_apply,
    Ideal.mulf_def, Ideal.ofBits_def]
  rfl

/-- The flattened gates. -/
private theorem gate1_eq (x2 : (⟨S1600000x16, .f32⟩ : BufTy).Contents (Elt Ideal)) (x5 : (⟨S32x16, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) :
    val_main_v17 (F := Ideal) x2 x5 x6 x7 x8 = Spec.gate1 x2 x5 x6 x7 x8 := by
  unfold val_main_v17 Spec.gate1
  rw [gate_eq]

/-- The reference's rectified array is the specification's activation of its first ten arguments. -/
theorem act_eq (x0 : (⟨S100000x128, .f32⟩ : BufTy).Contents (Elt Ideal)) (x1 : (⟨S2x1600000, .i32⟩ : BufTy).Contents (Elt Ideal)) (x2 : (⟨S1600000x16, .f32⟩ : BufTy).Contents (Elt Ideal)) (x3 : (⟨S64x128, .f32⟩ : BufTy).Contents (Elt Ideal)) (x4 : (⟨S64, .f32⟩ : BufTy).Contents (Elt Ideal)) (x5 : (⟨S32x16, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) (x9 : (⟨S_, .f32⟩ : BufTy).Contents (Elt Ideal)) :
    val_main_v72 (F := Ideal) x0 x1 x2 x3 x4 x5 x6 x7 x8 x9 = Spec.act x0 x1 x2 x3 x4 x5 x6 x7 x8 x9 := by
  rw [prelu_eq, agg_eq, xt_eq, gate1_eq]
  rfl

end Cert.ReferenceIdeal.RefHead

end
-- ==== Proof.RefTail.lean ====
/-
  The reference after the rectifier is the specification's centred normalisation of the rectified array: the column
  mean, the centred entries, their mean square, and the scaled, shifted quotient, each read at an entry.
-/
import proofs.«158705_j36850819400184_1_alg».proof.Proof.Gen.ReferenceIdeal.Read
import proofs.«158705_j36850819400184_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefTail

open Cert.ReferenceIdeal Cert.ReferenceIdeal.Gen Cert.ReferenceIdeal.Read
open Idealize.ShloMosaic Idealize.ShloMosaic.TcCoe Idealize.ShloMosaic.ValueIdx Idealize.SL.Sem

/-- The reference's result is the centred normalisation of its rectified array. -/
theorem out_eq (x0 : (⟨S100000x128, .f32⟩ : BufTy).Contents (Elt Ideal)) (x1 : (⟨S2x1600000, .i32⟩ : BufTy).Contents (Elt Ideal)) (x2 : (⟨S1600000x16, .f32⟩ : BufTy).Contents (Elt Ideal)) (x3 : (⟨S64x128, .f32⟩ : BufTy).Contents (Elt Ideal)) (x4 : (⟨S64, .f32⟩ : BufTy).Contents (Elt Ideal)) (x5 : (⟨S32x16, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) (x9 : (⟨S_, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) :
    val_main_v95 (F := Ideal) x0 x1 x2 x3 x4 x5 x6 x7 x8 x9 x10 x11 x12
      = Spec.rOut (val_main_v72 (F := Ideal) x0 x1 x2 x3 x4 x5 x6 x7 x8 x9) x10 x11 x12 := by
  funext i
  obtain ⟨n, j, rfl⟩ : ∃ (n : Fin 100000) (j : Fin 64), i = ix2 n j := ⟨i 0, i 1, eq_ix2 i⟩
  -- a row broadcast then a column broadcast read entry (n, j) of a [64] array at j
  have eA : ∀ n : Fin 100000, idx_main_v77 (idx_main_v78 (ix2 n j)) = ix1 j :=
    fun n => funext fun a => Fin.ext (by match a with | ⟨0, _⟩ => rfl)
  have eB : idx_main_v84 (idx_main_v85 (ix2 n j)) = ix1 j :=
    funext fun a => Fin.ext (by match a with | ⟨0, _⟩ => rfl)
  have eC : idx_main_v90 (idx_main_v91 (ix2 n j)) = ix1 j :=
    funext fun a => Fin.ext (by match a with | ⟨0, _⟩ => rfl)
  have eD : idx_main_v93 (idx_main_v94 (ix2 n j)) = ix1 j :=
    funext fun a => Fin.ext (by match a with | ⟨0, _⟩ => rfl)
  -- term k of a column sum at column j is entry (k, j)
  have eE : ∀ k : Fin 100000, idx_main_v73 (ix1 j) k = ix2 k j :=
    fun k => funext fun a => Fin.ext (by match a with | ⟨0, _⟩ => rfl | ⟨1, _⟩ => rfl)
  have eF : ∀ k : Fin 100000, idx_main_v81 (ix1 j) k = ix2 k j :=
    fun k => funext fun a => Fin.ext (by match a with | ⟨0, _⟩ => rfl | ⟨1, _⟩ => rfl)
  -- a term of the second column sum: the square of the centred entry (k, j)
  have hS : ∀ k : Fin 100000, val_main_v80 (F := Ideal) x0 x1 x2 x3 x4 x5 x6 x7 x8 x9 x12 (ix2 k j)
      = Spec.rCen (val_main_v72 (F := Ideal) x0 x1 x2 x3 x4 x5 x6 x7 x8 x9) x12 k j
        * Spec.rCen (val_main_v72 (F := Ideal) x0 x1 x2 x3 x4 x5 x6 x7 x8 x9) x12 k j := by
    intro k
    rw [val_main_v80_apply, val_main_v79_apply, val_main_v78_apply, val_main_v77_apply, val_main_v76_apply,
      val_main_v75_apply, val_main_v73_apply, val_main_v74_apply, val_main_cst_12_apply, val_main_cst_13_apply, eA]
    simp only [eE]
    generalize val_main_v72 (F := Ideal) x0 x1 x2 x3 x4 x5 x6 x7 x8 x9 = p
    rfl
  -- the entry (n, j) of the result, stage by stage down to the rectified array and the two column sums
  rw [val_main_v95_apply, val_main_v92_apply, val_main_v86_apply, val_main_v85_apply, val_main_v84_apply,
    val_main_v79_apply, val_main_v78_apply, val_main_v77_apply, val_main_v76_apply, val_main_v75_apply,
    val_main_v73_apply, val_main_v74_apply, val_main_v91_apply, val_main_v90_apply, val_main_v89_apply,
    val_main_v88_apply, val_main_v83_apply, val_main_v81_apply, val_main_v82_apply,
    val_main_v87_apply, val_main_v94_apply, val_main_v93_apply, val_main_cst_12_apply, val_main_cst_13_apply,
    val_main_cst_14_apply, val_main_cst_15_apply, val_main_cst_16_apply, eA, eB, eC, eD]
  simp only [eF, eE]
  simp only [hS]
  generalize val_main_v72 (F := Ideal) x0 x1 x2 x3 x4 x5 x6 x7 x8 x9 = p
  rfl

end Cert.ReferenceIdeal.RefTail

end
-- ==== Proof.Alg.lean ====
/-
  The one law that joins the two programs. On real entries the kernel's folded normalisation
  x * A + B, with the variance taken as mean(x^2) - mean(x)^2 * (2s - s^2), is the reference's
  w * (x - s*mu) * rsqrt(var + eps) + b with the variance of the centred entries: expanding the square under the sum,
  sum (x - s*mu)^2 = sum x^2 - 2*s*mu * sum x + n*(s*mu)^2, and mu = (sum x)/n with n = 100000 the number of rows.
-/
import proofs.«158705_j36850819400184_1_alg».proof.Proof.Spec
import Idealize.ShloMosaic.PureOps.Ideal
import Idealize.ShloMosaic.PureOps.Ideal.Laws
import Idealize.ShloMosaic.Lib.ValueIdx

noncomputable section

open scoped BigOperators

namespace Cert.Alg

open Idealize.ShloMosaic Idealize.ShloMosaic.ValueIdx Cert.KernelIdeal Cert.Spec

/-- The row count's pattern denotes the real 100000. -/
private theorem cN_eq : cN = ((100000 : ℝ) : EReal) := by
  simp [Ideal.ofBits, Ideal.ieee, -EReal.coe_mul]; norm_num

/-- The pattern of two denotes the real 2. -/
private theorem c2_eq : c2 = ((2 : ℝ) : EReal) := by
  simp [Ideal.ofBits, Ideal.ieee, -EReal.coe_mul]; norm_num

/-- The variance floor's pattern denotes a positive real. -/
private theorem cEps_pos : ∃ e : ℝ, 0 < e ∧ cEps = (e : EReal) := by
  refine ⟨10995116 * (2 : ℝ) ^ (-40 : Int), by positivity, ?_⟩
  simp [Ideal.ofBits, Ideal.ieee, -EReal.coe_mul]

/-- The coercion of a finite real sum is the sum of the coercions. -/
private theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The reciprocal square root of a positive real is a real. -/
private theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-- The variance identity on reals: the mean of the squares of the centred entries is the mean of the squares
    less the squared mean times 2s - s². -/
private theorem var_real (P : Fin 100000 → ℝ) (s : ℝ) :
    (∑ n, (P n - s * ((∑ k, P k) * (1 / 100000))) * (P n - s * ((∑ k, P k) * (1 / 100000)))) * (1 / 100000)
      = (∑ n, P n * P n) * (1 / 100000)
        - ((∑ k, P k) * (1 / 100000)) * ((∑ k, P k) * (1 / 100000)) * (2 * s - s * s) := by
  have h : ∀ n, (P n - s * ((∑ k, P k) * (1 / 100000))) * (P n - s * ((∑ k, P k) * (1 / 100000)))
      = P n * P n - (2 * s * ((∑ k, P k) * (1 / 100000))) * P n
        + (s * ((∑ k, P k) * (1 / 100000))) * (s * ((∑ k, P k) * (1 / 100000))) := fun n => by ring
  simp only [h, Finset.sum_add_distrib, Finset.sum_sub_distrib, ← Finset.mul_sum, Finset.sum_const,
    Finset.card_univ, Fintype.card_fin, nsmul_eq_mul]
  push_cast
  ring

/-- The centred variance is nonnegative. -/
private theorem var_nonneg (P : Fin 100000 → ℝ) (c : ℝ) :
    0 ≤ (∑ n, (P n - c) * (P n - c)) * (1 / 100000) :=
  mul_nonneg (Finset.sum_nonneg fun n _ => mul_self_nonneg _) (by norm_num)

/-- The column mean of real entries, as either program spells it, is the real mean. -/
private theorem mean_coe (P : Fin 100000 → ℝ) :
    Ideal.div (∑ k, (P k : EReal)) cN = (((∑ k, P k) * (1 / 100000) : ℝ) : EReal) := by
  rw [← coe_sum, cN_eq, Ideal.div_coe (by norm_num : (100000 : ℝ) ≠ 0), ← EReal.coe_mul]

/-- The kernel's variance of real entries, with any real in the mean's place, is a real. -/
private theorem kvar_coe (P : Fin 100000 → ℝ) (s μ : ℝ) :
    Ideal.div (∑ k, (P k : EReal) * (P k : EReal)) cN - ((μ : EReal) * (μ : EReal)) * (c2 * (s : EReal) - (s : EReal) * (s : EReal))
      = (((∑ k, P k * P k) * (1 / 100000) - μ * μ * (2 * s - s * s) : ℝ) : EReal) := by
  have h : ∀ k, (P k : EReal) * (P k : EReal) = ((P k * P k : ℝ) : EReal) := fun k => (EReal.coe_mul _ _).symm
  simp only [h]
  rw [← coe_sum, cN_eq, c2_eq, Ideal.div_coe (by norm_num : (100000 : ℝ) ≠ 0)]
  simp only [← EReal.coe_mul, ← EReal.coe_sub]

/-- The reference's variance of real entries, with any real in the mean's place, is a real. -/
private theorem rvar_coe (P : Fin 100000 → ℝ) (s μ : ℝ) :
    Ideal.div (∑ k, ((P k : EReal) - (s : EReal) * (μ : EReal)) * ((P k : EReal) - (s : EReal) * (μ : EReal))) cN
      = (((∑ k, (P k - s * μ) * (P k - s * μ)) * (1 / 100000) : ℝ) : EReal) := by
  have h : ∀ k, ((P k : EReal) - (s : EReal) * (μ : EReal)) * ((P k : EReal) - (s : EReal) * (μ : EReal))
      = (((P k - s * μ) * (P k - s * μ) : ℝ) : EReal) := fun k => by
    simp only [← EReal.coe_mul, ← EReal.coe_sub]
  simp only [h]
  rw [← coe_sum, cN_eq, Ideal.div_coe (by norm_num : (100000 : ℝ) ≠ 0), ← EReal.coe_mul]

/-- One entry: with the column's entries, weight, shift and slope real, the kernel's affine form is the
    reference's centred form. -/
private theorem entry_eq (pc : Fin 100000 → EReal) (P : Fin 100000 → ℝ) (hP : ∀ k, pc k = (P k : EReal))
    (wj bj sj : EReal) (W B S : ℝ) (hw : wj = (W : EReal)) (hb : bj = (B : EReal)) (hs : sj = (S : EReal))
    (n : Fin 100000) :
    pc n * (wj * Ideal.rsqrt ((Ideal.div (∑ k, pc k * pc k) cN
          - (Ideal.div (∑ k, pc k) cN * Ideal.div (∑ k, pc k) cN) * (c2 * sj - sj * sj)) + cEps))
      + (bj - (wj * Ideal.rsqrt ((Ideal.div (∑ k, pc k * pc k) cN
          - (Ideal.div (∑ k, pc k) cN * Ideal.div (∑ k, pc k) cN) * (c2 * sj - sj * sj)) + cEps) * sj)
          * Ideal.div (∑ k, pc k) cN)
    = (wj * (pc n - sj * Ideal.div (Ideal.ofBits .f32 0x00000000#32 + ∑ k, pc k) cN))
        * Ideal.rsqrt (Ideal.div (Ideal.ofBits .f32 0x00000000#32
            + ∑ k, (pc k - sj * Ideal.div (Ideal.ofBits .f32 0x00000000#32 + ∑ k', pc k') cN)
                * (pc k - sj * Ideal.div (Ideal.ofBits .f32 0x00000000#32 + ∑ k', pc k') cN)) cN + cEps)
      + bj := by
  subst hw hb hs
  obtain ⟨e, he, hE⟩ := cEps_pos
  simp only [hP, Ideal.ofBits_zero_f32, zero_add]
  rw [mean_coe, kvar_coe, rvar_coe, var_real]
  have hpos : 0 < (∑ k, P k * P k) * (1 / 100000)
      - ((∑ k, P k) * (1 / 100000)) * ((∑ k, P k) * (1 / 100000)) * (2 * S - S * S) + e := by
    have := var_nonneg P (S * ((∑ k, P k) * (1 / 100000)))
    rw [var_real] at this
    linarith
  rw [hE, ← EReal.coe_add, rsqrt_pos hpos]
  simp only [← EReal.coe_mul, ← EReal.coe_sub, ← EReal.coe_add]
  rw [EReal.coe_eq_coe_iff]
  ring

/-- On real entries, scales and shifts the kernel's affine form of the normalisation is the reference's centred form. -/
theorem kOut_eq_rOut (p : FVec Ideal S100000x64 .f32) (w b s : FVec Ideal S64 .f32)
    (hp : AllReal p) (hw : AllReal w) (hb : AllReal b) (hs : AllReal s) : kOut p w b s = rOut p w b s := by
  choose P hP using hp
  choose W hW using hw
  choose B hB using hb
  choose S hS using hs
  funext i
  obtain ⟨n, j, rfl⟩ : ∃ (n : Fin 100000) (j : Fin 64), i = ix2 n j := ⟨i 0, i 1, eq_ix2 i⟩
  exact entry_eq (fun k => p (ix2 k j)) (fun k => P (ix2 k j)) (fun k => hP _) (w (ix1 j)) (b (ix1 j)) (s (ix1 j))
    (W (ix1 j)) (B (ix1 j)) (S (ix1 j)) (hW _) (hB _) (hS _) n

end Cert.Alg

end
-- ==== Proof.Real.lean ====
/-
  Real inputs give real activations. The gate is a logistic value, real whatever its argument; a transformed feature
  is a finite sum of products of reals; a degree is a finite sum of gates and ones, its inverse square root a real or
  zero; a gather only picks entries; a message is a product of reals; a scatter-add is an entry plus a finite sum of
  entries; the rectifier keeps an entry or scales it by a real slope.
-/
import proofs.«158705_j36850819400184_1_alg».proof.Proof.Spec
import Idealize.ShloMosaic.PureOps.Ideal
import Idealize.ShloMosaic.Lib.ValueIdx
import Idealize.ShloMosaic.Lib.IdealHost
import Idealize.ShloMosaic.Lib.Pipeline.Value

noncomputable section

open scoped BigOperators

namespace Cert.Real

open Idealize.ShloMosaic Idealize.ShloMosaic.ValueIdx Cert.KernelIdeal Cert.Spec

/-! ## Real extended reals -/

/-- An extended real that is a real number. -/
private def IsReal (x : EReal) : Prop := ∃ r : ℝ, x = (r : EReal)

private theorem isReal_coe (r : ℝ) : IsReal (r : EReal) := ⟨r, rfl⟩

private theorem isReal_zero : IsReal 0 := ⟨0, EReal.coe_zero.symm⟩

private theorem isReal_one : IsReal 1 := ⟨1, EReal.coe_one.symm⟩

/-- A sum of two reals is a real. -/
private theorem isReal_add {x y : EReal} (hx : IsReal x) (hy : IsReal y) : IsReal (x + y) := by
  obtain ⟨a, rfl⟩ := hx
  obtain ⟨b, rfl⟩ := hy
  exact ⟨a + b, (EReal.coe_add a b).symm⟩

/-- A product of two reals is a real. -/
private theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
private theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The logistic function takes real values only: zero and one at the two infinities. -/
private theorem isReal_logistic (x : EReal) : IsReal (Ideal.logistic x) := by
  induction x using EReal.rec with
  | bot => rw [Ideal.logistic_bot]; exact isReal_zero
  | coe r => exact ⟨_, Ideal.logistic_coe r⟩
  | top => rw [Ideal.logistic_top]; exact isReal_one

/-- The inverse square root of a positive real is a real. -/
private theorem isReal_rsqrt_pos {r : ℝ} (h : 0 < r) : IsReal (Ideal.rsqrt (r : EReal)) := by
  rw [Ideal.rsqrt_coe, if_neg (not_lt.2 h.le), if_neg h.ne']
  exact isReal_coe _

/-- A choice between two reals is a real. -/
private theorem isReal_select (c : BitVec 1) {x y : EReal} (hx : IsReal x) (hy : IsReal y) : IsReal (Scalar.select c x y) := by
  rcases BitVec.eq_zero_or_eq_one c with h | h
  · rw [h, select_zero]; exact hy
  · rw [h, select_one]; exact hx

/-- The inverse square root where the argument is positive, zero elsewhere: a real at every real argument. -/
private theorem isReal_rsqrt_or_zero {d z : EReal} (hd : IsReal d) (hz : z = 0) :
    IsReal (Scalar.select (Ideal.cmp .ogt d z) (Ideal.rsqrt d) z) := by
  obtain ⟨r, rfl⟩ := hd
  subst hz
  by_cases h : (0 : EReal) < (r : EReal)
  · have hc : Ideal.cmp .ogt (r : EReal) 0 = 1#1 := by
      show BitVec.ofBool (decide ((0 : EReal) < (r : EReal))) = 1#1
      rw [decide_eq_true h]; rfl
    rw [hc, select_one]
    exact isReal_rsqrt_pos (by exact_mod_cast h)
  · have hc : Ideal.cmp .ogt (r : EReal) 0 = 0#1 := by
      show BitVec.ofBool (decide ((0 : EReal) < (r : EReal))) = 0#1
      rw [decide_eq_false h]; rfl
    rw [hc, select_zero]
    exact isReal_zero

/-! ## Arrays of reals under the re-indexing and elementwise operations -/

/-- A reshape only re-indexes. -/
private theorem allReal_shapeCast {s t : Shape} (v : FVec Ideal s .f32) (h : s.ShapeCasts t) (hv : AllReal v) :
    AllReal (shapeCast t v h) := fun j => hv _

/-- A broadcast only re-indexes. -/
private theorem allReal_broadcastInDim {s t : Shape} (dims : Fin s.rank → Fin t.rank) (h : s.BroadcastsInDim t dims)
    (v : FVec Ideal s .f32) (hv : AllReal v) : AllReal (broadcastInDim t dims h v) := fun j => hv _

/-- A gather only picks entries. -/
private theorem allReal_gather {s si t : Shape} {w : Nat} (d : GatherDims s si t) (v : FVec Ideal s .f32) (idx : IVec si w)
    (hv : AllReal v) : AllReal (Host.gather d v idx) := fun j => hv _

/-- A splat of a word that denotes a real. -/
private theorem allReal_constant {s : Shape} (b : BitVec 32) (hb : IsReal (Ideal.ofBits .f32 b)) :
    AllReal (constant (F := Ideal) s .f32 b) := fun _ => hb

private theorem allReal_mulf {s : Shape} (a b : FVec Ideal s .f32) (ha : AllReal a) (hb : AllReal b) : AllReal (mulf a b) :=
  fun i => isReal_mul (ha i) (hb i)

private theorem allReal_addf {s : Shape} (a b : FVec Ideal s .f32) (ha : AllReal a) (hb : AllReal b) : AllReal (addf a b) :=
  fun i => isReal_add (ha i) (hb i)

/-- An entry of a concatenation is an entry of one of the pieces. -/
private theorem concatenate_eq_piece {α : Type} {t : Shape} (a : Fin t.rank) (xs : List ((s : Shape) × (s.Idx → α)))
    (h : Shape.Concatenates (xs.map (·.1)) t a) (j : t.Idx) :
    ∃ (k : Nat) (hk : k < xs.length) (i : (xs[k]).1.Idx), concatenate t a xs h j = (xs[k]).2 i := by
  unfold concatenate
  exact ⟨_, _, _, rfl⟩

/-- A concatenation of two arrays of reals. -/
private theorem allReal_concatenate_pair {t s₁ s₂ : Shape} (a : Fin t.rank) (x₁ : FVec Ideal s₁ .f32) (x₂ : FVec Ideal s₂ .f32)
    (h : Shape.Concatenates [s₁, s₂] t a) (h₁ : AllReal x₁) (h₂ : AllReal x₂) :
    AllReal (concatenate t a [⟨s₁, x₁⟩, ⟨s₂, x₂⟩] h) := by
  intro j
  obtain ⟨k, hk, i, e⟩ := concatenate_eq_piece a [⟨s₁, x₁⟩, ⟨s₂, x₂⟩] h j
  rw [e]
  match k, hk, i with
  | 0, _, i => exact h₁ i
  | 1, _, i => exact h₂ i

/-- A scatter-add: an entry of the operand plus a finite sum of entries of the updates. -/
private theorem allReal_scatterAdd {s si u : Shape} {w : Nat} (d : ScatterDims s si u) (x : FVec Ideal s .f32) (idx : IVec si w)
    (upd : FVec Ideal u .f32) (hx : AllReal x) (hu : AllReal upd) : AllReal (Host.scatterAdd d x idx upd) := by
  intro i
  unfold Host.scatterAdd
  rw [Ideal.hostScatterAdd_def]
  unfold Ideal.hostScatterAdd
  exact isReal_add (hx i) (isReal_sum _ _ fun j _ => hu j)

/-! ## The layer, operation by operation -/

/-- The zero word denotes the real zero; so does its broadcast to any shape. -/
private theorem allReal_zeros {s t : Shape} (dims : Fin s.rank → Fin t.rank) (h : s.BroadcastsInDim t dims) :
    AllReal (broadcastInDim t dims h (constant (F := Ideal) s .f32 0x00000000#32)) :=
  allReal_broadcastInDim dims h _ (allReal_constant _ (by rw [Ideal.ofBits_zero_f32]; exact isReal_zero))

/-- Every gate is a logistic value, hence a real, whatever the edge network's inputs. -/
private theorem gate1_allReal (ea : FVec Ideal S1600000x16 .f32) (w1 : FVec Ideal S32x16 .f32) (b1 : FVec Ideal S32 .f32)
    (w2 : FVec Ideal S1x32 .f32) (b2 : FVec Ideal S1 .f32) : AllReal (gate1 ea w1 b1 w2 b2) := by
  unfold gate1
  refine allReal_shapeCast _ _ fun i => ?_
  show IsReal (Ideal.logistic _)
  exact isReal_logistic _

/-- A transformed feature is a finite sum of products of reals. -/
private theorem xt_allReal (x : FVec Ideal S100000x128 .f32) (lw : FVec Ideal S64x128 .f32) (hx : AllReal x) (hlw : AllReal lw) :
    AllReal (xt x lw) := by
  intro i
  show IsReal (∑ k : Fin 128, x (ix2 (i 0) k) * lw (ix2 (i 1) k))
  exact isReal_sum _ _ fun k _ => isReal_mul (hx _) (hlw _)

/-- The edge weights: the gates, then the word of one for every self loop. -/
private theorem ewFull_allReal (ew1 : FVec Ideal S1600000 .f32) (h : AllReal ew1) : AllReal (ewFull (F := Ideal) ew1) := by
  unfold ewFull
  exact allReal_concatenate_pair _ _ _ _ h
    (allReal_broadcastInDim _ _ _ (allReal_constant _ (by rw [Ideal.ofBits_one_f32]; exact isReal_one)))

/-- A weighted degree is zero plus a finite sum of edge weights. -/
private theorem deg_allReal (ew1 : FVec Ideal S1600000 .f32) (ei : IVec S2x1600000 32) (h : AllReal ew1) :
    AllReal (deg (F := Ideal) ew1 ei) := by
  unfold deg
  exact allReal_scatterAdd _ _ _ _ (allReal_zeros _ _) (ewFull_allReal ew1 h)

/-- The broadcast zero word reads zero at every index. -/
private theorem zeros_apply {s t : Shape} (dims : Fin s.rank → Fin t.rank) (h : s.BroadcastsInDim t dims) (j : t.Idx) :
    broadcastInDim t dims h (constant (F := Ideal) s .f32 0x00000000#32) j = 0 := by
  unfold broadcastInDim
  rw [constant_apply]
  exact Ideal.ofBits_zero_f32

/-- Over any shape: the inverse square root where an array of reals is above an array of zeros, that zero elsewhere. -/
private theorem allReal_rsqrt_or_zero {s : Shape} (d z : FVec Ideal s .f32) (hd : AllReal d) (hz : ∀ i, z i = 0) :
    AllReal (select (cmpf .ogt d z) (Host.rsqrt d) z) := by
  intro i
  rw [select_apply, cmpf_apply]
  show IsReal (Scalar.select (Ideal.cmp .ogt (d i) (z i)) (Ideal.rsqrt (d i)) (z i))
  exact isReal_rsqrt_or_zero (hd i) (hz i)

/-- The inverse square root of a positive degree, zero at a degree that is not positive. -/
private theorem dinv_allReal (ew1 : FVec Ideal S1600000 .f32) (ei : IVec S2x1600000 32) (h : AllReal ew1) :
    AllReal (dinv (F := Ideal) ew1 ei) := by
  unfold dinv
  exact allReal_rsqrt_or_zero _ _ (deg_allReal ew1 ei h) fun i => zeros_apply _ _ i

/-- An edge's normalisation is a product of three reals. -/
private theorem norm_allReal (ew1 : FVec Ideal S1600000 .f32) (ei : IVec S2x1600000 32) (h : AllReal ew1) :
    AllReal (Spec.norm (F := Ideal) ew1 ei) := by
  have hd := dinv_allReal ew1 ei h
  unfold Spec.norm
  exact allReal_mulf _ _ (allReal_mulf _ _ (allReal_gather _ _ _ hd) (ewFull_allReal ew1 h)) (allReal_gather _ _ _ hd)

/-- An edge's message is its normalisation times a transformed feature of its source. -/
private theorem msgs_allReal (ew1 : FVec Ideal S1600000 .f32) (y : FVec Ideal S100000x64 .f32) (ei : IVec S2x1600000 32)
    (h : AllReal ew1) (hy : AllReal y) : AllReal (msgs (F := Ideal) ew1 y ei) := by
  have hn := norm_allReal ew1 ei h
  unfold msgs
  exact allReal_mulf _ _ (allReal_broadcastInDim _ _ _ (allReal_broadcastInDim _ _ _ hn)) (allReal_gather _ _ _ hy)

/-- An aggregated feature is zero plus a finite sum of messages, plus a bias entry. -/
private theorem agg_allReal (ew1 : FVec Ideal S1600000 .f32) (y : FVec Ideal S100000x64 .f32) (ei : IVec S2x1600000 32)
    (bias : FVec Ideal S64 .f32) (h : AllReal ew1) (hy : AllReal y) (hb : AllReal bias) :
    AllReal (agg (F := Ideal) ew1 y ei bias) := by
  have hm := msgs_allReal ew1 y ei h hy
  unfold agg
  exact allReal_addf _ _ (allReal_scatterAdd _ _ _ _ (allReal_zeros _ _) hm)
    (allReal_broadcastInDim _ _ _ (allReal_broadcastInDim _ _ _ hb))

/-- The rectifier keeps an entry or scales it by the slope. -/
private theorem prelu_allReal (a : FVec Ideal S_ .f32) (o : FVec Ideal S100000x64 .f32) (ha : AllReal a) (ho : AllReal o) :
    AllReal (prelu a o) :=
  fun i => isReal_select _ (ho i) (isReal_mul (ha ix0) (ho i))

/-- With real node features, weights, bias and slope, every activation is real (the integer edge list and the edge
    network's inputs may be anything). -/
theorem act_allReal (x : FVec Ideal S100000x128 .f32) (ei : IVec S2x1600000 32) (ea : FVec Ideal S1600000x16 .f32) (lw : FVec Ideal S64x128 .f32)
    (bias : FVec Ideal S64 .f32) (w1 : FVec Ideal S32x16 .f32) (b1 : FVec Ideal S32 .f32) (w2 : FVec Ideal S1x32 .f32) (b2 : FVec Ideal S1 .f32)
    (a : FVec Ideal S_ .f32) (hx : AllReal x) (hlw : AllReal lw) (hbias : AllReal bias) (ha : AllReal a) :
    AllReal (act x ei ea lw bias w1 b1 w2 b2 a) := by
  unfold act feat
  exact prelu_allReal a _ ha
    (agg_allReal _ _ ei bias (gate1_allReal ea w1 b1 w2 b2) (xt_allReal x lw hx hlw) hbias)

end Cert.Real

end
-- ==== Proof.Pre.lean ====
/-
  What the precondition gives: every float argument's entries have absolute value below +infinity, so each is a real
  number. Read off for the seven arguments the final law and the finiteness of the activations use.
-/
import proofs.«158705_j36850819400184_1_alg».proof.Defs
import proofs.«158705_j36850819400184_1_alg».proof.Proof.Gen.Pre_finite_inputs
import proofs.«158705_j36850819400184_1_alg».proof.Proof.Spec
import Idealize.ShloMosaic.Lib.ReduceAll
import Idealize.ShloMosaic.Lib.ValueIdx

noncomputable section

open scoped BigOperators

namespace Cert.PreReal

open Idealize.ShloMosaic Idealize.ShloMosaic.TcCoe Idealize.ShloMosaic.ValueIdx Idealize.SL.Sem Cert.KernelIdeal Cert.Spec

/-- The scalar shape has one index. -/
private instance : Subsingleton S_.Idx := ⟨fun a b => funext fun d => d.elim0⟩

/-- The bit pattern 0x7F800000 denotes +infinity. -/
private theorem inf_bits : Ideal.ofBits .f32 0x7F800000#32 = (⊤ : EReal) := by
  simp [Ideal.ofBits, Ideal.ieee]

/-- An extended real whose absolute value is strictly below +infinity is a real number. -/
private theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | top => simp [Ideal.cmp] at h
  | coe r => exact ⟨r, rfl⟩

/-- An all-ones conjunction over every entry of the test "absolute value below +infinity" says every entry is a
    real number. -/
private theorem allReal_of_all {s : Shape} {axes : List (Fin s.rank)} (x y : FVec Ideal s .f32)
    (hy : ∀ i, y i = Ideal.ofBits .f32 0x7F800000#32)
    (hr : s.ReducesTo axes S_) (hu : 0 < S_.numel) (init : IVec S_ 1)
    (e : Host.reduce IntOp.andi (cmpf .olt (Host.absf x) y) init hr hu ix0 = 1#1) : AllReal x := by
  intro i
  have hi := Host.reduce_andi_all _ init hr hu ix0 e i
  refine real_of_abs_lt_inf (x i) ?_
  rw [← hy i]
  exact hi

/-- Under the precondition the node features, the linear weights, the bias, the slope and the three normalisation
    arrays hold real numbers only. -/
theorem real_of_pre (m : (ℓ : Loc nD τ sig) → Buf (Elt Ideal) ℓ) (h : Cert.Pre_KernelIdeal m) (c : Dev nD) :
    AllReal (s := S100000x128) (m ((c.tc : Thread nD τ).loc main_arg0))
    ∧ AllReal (s := S64x128) (m ((c.tc : Thread nD τ).loc main_arg3))
    ∧ AllReal (s := S64) (m ((c.tc : Thread nD τ).loc main_arg4))
    ∧ AllReal (s := S_) (m ((c.tc : Thread nD τ).loc main_arg9))
    ∧ AllReal (s := S64) (m ((c.tc : Thread nD τ).loc main_arg10))
    ∧ AllReal (s := S64) (m ((c.tc : Thread nD τ).loc main_arg11))
    ∧ AllReal (s := S64) (m ((c.tc : Thread nD τ).loc main_arg12)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨allReal_of_all _ _ (fun _ => rfl) _ _ _ h0, allReal_of_all _ _ (fun _ => rfl) _ _ _ h3,
    allReal_of_all _ _ (fun _ => rfl) _ _ _ h4, allReal_of_all _ _ (fun _ => rfl) _ _ _ h9,
    allReal_of_all _ _ (fun _ => rfl) _ _ _ h10, allReal_of_all _ _ (fun _ => rfl) _ _ _ h11,
    allReal_of_all _ _ (fun _ => rfl) _ _ _ h12⟩

end Cert.PreReal

end
-- ==== Proof.lean ====
/-
  The certificate. A graph layer (an edge-gated aggregation, a leaky rectifier, a column normalisation) computed by four
  kernel launches among host operations, against its plain host reference, over the extended reals.

  The three frames are the generated ones (the reference's is its generated run with the result dropped); the
  idealization rewrote nothing, so `preserves` is trivial. For the value claim both runs are posted at ONE term: the
  kernel's result array, read back through its run's boundaries, is the affine form of the normalisation of the
  activations of the arguments; the reference's is the centred form of the same activations (its edge network, matrix
  product, aggregation and rectifier are the specification's, entry by entry or term for term). Under the precondition
  the activations are real numbers, and on real numbers the two forms of the normalisation agree.
-/
import proofs.«158705_j36850819400184_1_alg».proof.Defs
import proofs.«158705_j36850819400184_1_alg».proof.Proof.Gen.Kernel
import proofs.«158705_j36850819400184_1_alg».proof.Proof.Gen.Kernel.Frame
import proofs.«158705_j36850819400184_1_alg».proof.Proof.Gen.KernelIdeal
import proofs.«158705_j36850819400184_1_alg».proof.Proof.Gen.KernelIdeal.Frame
import proofs.«158705_j36850819400184_1_alg».proof.Proof.Gen.ReferenceIdeal
import proofs.«158705_j36850819400184_1_alg».proof.Proof.Gen.Pre_finite_inputs
import proofs.«158705_j36850819400184_1_alg».proof.Proof.Gen.ReferenceIdeal.Run
import proofs.«158705_j36850819400184_1_alg».proof.Proof.Gen.ReferenceIdeal.Read
import proofs.«158705_j36850819400184_1_alg».proof.Proof.KRun
import proofs.«158705_j36850819400184_1_alg».proof.Proof.KVal
import proofs.«158705_j36850819400184_1_alg».proof.Proof.RefHead
import proofs.«158705_j36850819400184_1_alg».proof.Proof.RefTail
import proofs.«158705_j36850819400184_1_alg».proof.Proof.Alg
import proofs.«158705_j36850819400184_1_alg».proof.Proof.Real
import proofs.«158705_j36850819400184_1_alg».proof.Proof.Pre
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the normalised activations of the arguments: the kernel in the affine form, the reference
    in the centred form, equal because the activations are real under the precondition. -/
theorem algebraic : Cert.algebraic_KernelIdeal_ReferenceIdeal := by
  intro m ρ m' ρ' hpre hagree
  refine ⟨fun c => Spec.kOut (Cert.KernelIdeal.KVal.actOf m c) (Cert.KernelIdeal.KVal.a10 m c) (Cert.KernelIdeal.KVal.a11 m c) (Cert.KernelIdeal.KVal.a12 m c), ?_, ?_⟩
  · exact (θ_run Cert.KernelIdeal.defs _ _).mono (fun r h c => ⟨(h c).1.trans (Cert.KernelIdeal.KVal.result m ρ c), (h c).2⟩)
      (Cert.KernelIdeal.KRun.run_result m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10, e11, e12⟩ := hagree c
    obtain ⟨r0, r3, r4, r9, r10, r11, r12⟩ := Cert.PreReal.real_of_pre m hpre c
    rw [(h c).1, Cert.ReferenceIdeal.Read.val_main_v95_eq, Cert.ReferenceIdeal.RefTail.out_eq, Cert.ReferenceIdeal.RefHead.act_eq,
      e0, e1, e2, e3, e4, e5, e6, e7, e8, e9, e10, e11, e12]
    exact (Cert.Alg.kOut_eq_rOut _ _ _ _ (Cert.Real.act_allReal _ _ _ _ _ _ _ _ _ _ r0 r3 r4 r9) r10 r11 r12).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
